-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x200 : Shape := ⟨2, ![100000, 200]⟩
abbrev S2x800000 : Shape := ⟨2, ![2, 800000]⟩
abbrev S800000 : Shape := ⟨1, ![800000]⟩
abbrev S100000 : Shape := ⟨1, ![100000]⟩
abbrev S200x128 : Shape := ⟨2, ![200, 128]⟩
abbrev S128 : Shape := ⟨1, ![128]⟩
abbrev S128x1 : Shape := ⟨2, ![128, 1]⟩
abbrev S1 : Shape := ⟨1, ![1]⟩
abbrev S_ : Shape := ⟨0, ![]⟩
abbrev S1x800000 : Shape := ⟨2, ![1, 800000]⟩

class Facts : Prop where
  bcast_S_S100000x200 : S_.BroadcastsInDim S100000x200 (![] : Fin 0 → Fin S100000x200.rank)
  reducesTo_S100000x200_S_d0_1 : S100000x200.ReducesTo [0, 1] S_
  h_S_ : 0 < S_.numel
  bcast_S_S800000 : S_.BroadcastsInDim S800000 (![] : Fin 0 → Fin S800000.rank)
  reducesTo_S800000_S_d0 : S800000.ReducesTo [0] S_
  bcast_S_S200x128 : S_.BroadcastsInDim S200x128 (![] : Fin 0 → Fin S200x128.rank)
  reducesTo_S200x128_S_d0_1 : S200x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S2x800000_S1x800000_0_0 : S2x800000.Slices ![0, 0] S1x800000
  shapeCasts_S1x800000_S800000 : S1x800000.ShapeCasts S800000

variable [Facts]

def fn_part2 {F : FTy → Type} [FloatOps F] (main_v28 : IVec S_ 1) (main_v32 : IVec S800000 1) (main_v34 : IVec S800000 32) : IVec S_ 1 :=
  let main_c_11 : IVec S_ 32 := constantI S_ 32 100000#32
  let main_v35 : IVec S800000 32 := broadcastInDim S800000 ![] bcast_S_S800000 main_c_11
  let main_v36 : IVec S800000 1 := cmpi .slt main_v34 main_v35
  let main_v37 : IVec S800000 1 := andi main_v32 main_v36
  let main_c_12 : IVec S_ 1 := constantI S_ 1 1#1
  let main_v38 : IVec S_ 1 := (fun x v => Host.reduce IntOp.andi x v reducesTo_S800000_S_d0 h_S_) main_v37 main_c_12
  let main_v39 : IVec S_ 1 := andi main_v28 main_v38
  main_v39

def fn_part1 {F : FTy → Type} [FloatOps F] (main_arg1 : IVec S2x800000 32) (main_arg6 : FVec F S128x1 .f32) (main_arg7 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg6
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : IVec S1x800000 32 := (extractStridedSlice S1x800000 ![0, 0] · slices_S2x800000_S1x800000_0_0) main_arg1
  let main_v30 : IVec S800000 32 := shapeCast S800000 main_v29 shapeCasts_S1x800000_S800000
  let main_c_10 : IVec S_ 32 := constantI S_ 32 4294867296#32
  let main_v31 : IVec S800000 32 := broadcastInDim S800000 ![] bcast_S_S800000 main_c_10
  let main_v32 : IVec S800000 1 := cmpi .sge main_v30 main_v31
  let main_v33 : IVec S1x800000 32 := (extractStridedSlice S1x800000 ![0, 0] · slices_S2x800000_S1x800000_0_0) main_arg1
  let main_v34 : IVec S800000 32 := shapeCast S800000 main_v33 shapeCasts_S1x800000_S800000
  fn_part2 (F := F) main_v28 main_v32 main_v34

def fn {F : FTy → Type} [FloatOps F] (main_arg0 : FVec F S100000x200 .f32) (main_arg1 : IVec S2x800000 32) (main_arg2 : FVec F S800000 .f32) (main_arg3 : IVec S100000 32) (main_arg4 : FVec F S200x128 .f32) (main_arg5 : FVec F S128 .f32) (main_arg6 : FVec F S128x1 .f32) (main_arg7 : FVec F S1 .f32) : IVec S_ 1 :=
  let main_v0 : FVec F S100000x200 .f32 := Host.absf main_arg0
  let main_cst : FVec F S_ .f32 := constant S_ .f32 0x7F800000#32
  let main_v1 : FVec F S100000x200 .f32 := broadcastInDim S100000x200 ![] bcast_S_S100000x200 main_cst
  let main_v2 : IVec S100000x200 1 := cmpf .olt main_v0 main_v1
  let main_c : IVec S_ 1 := constantI S_ 1 1#1
  let main_v3 : IVec S_ 1 := (fun x v => Host.reduce IntOp.andi x v reducesTo_S100000x200_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S200x128 .f32 := Host.absf main_arg4
  let main_cst_2 : FVec F S_ .f32 := constant S_ .f32 0x7F800000#32
  let main_v10 : FVec F S200x128 .f32 := broadcastInDim S200x128 ![] bcast_S_S200x128 main_cst_2
  let main_v11 : IVec S200x128 1 := cmpf .olt main_v9 main_v10
  let main_c_3 : IVec S_ 1 := constantI S_ 1 1#1
  let main_v12 : IVec S_ 1 := (fun x v => Host.reduce IntOp.andi x v reducesTo_S200x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_v13 main_v16
-- ==== Kernel.lean ====
abbrev S100000x200 : Shape := ⟨2, ![100000, 200]⟩
abbrev S2x800000 : Shape := ⟨2, ![2, 800000]⟩
abbrev S800000 : Shape := ⟨1, ![800000]⟩
abbrev S100000 : Shape := ⟨1, ![100000]⟩
abbrev S200x128 : Shape := ⟨2, ![200, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S_ : Shape := ⟨0, ![]⟩
abbrev S800000x1 : Shape := ⟨2, ![800000, 1]⟩
abbrev S100000x1 : Shape := ⟨2, ![100000, 1]⟩
abbrev S100000x128 : Shape := ⟨2, ![100000, 128]⟩
abbrev S5000x200 : Shape := ⟨2, ![5000, 200]⟩
abbrev S5000x128 : Shape := ⟨2, ![5000, 128]⟩
abbrev S1x1 : Shape := ⟨2, ![1, 1]⟩
abbrev S800000x128 : Shape := ⟨2, ![800000, 128]⟩
abbrev S1x128 : Shape := ⟨2, ![1, 128]⟩
abbrev S5000x1 : Shape := ⟨2, ![5000, 1]⟩
abbrev S64x1 : Shape := ⟨2, ![64, 1]⟩
abbrev S64 : Shape := ⟨1, ![64]⟩

abbrev nBuf : Space → Nat
  | .hbm => 126
  | .vmem => 15
  | .smem => 0
  | _ => 0

abbrev bufTy : (tb : Table) → Fin (tcTables nBuf tb) → BufTy
  | .hbm, ⟨0, _⟩ => ⟨S100000x200, .f32⟩
  | .hbm, ⟨1, _⟩ => ⟨S2x800000, .i32⟩
  | .hbm, ⟨2, _⟩ => ⟨S800000, .f32⟩
  | .hbm, ⟨3, _⟩ => ⟨S100000, .i32⟩
  | .hbm, ⟨4, _⟩ => ⟨S200x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S100000, .f32⟩
  | .hbm, ⟨14, _⟩ => ⟨S800000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S800000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S800000, .f32⟩
  | .hbm, ⟨42, _⟩ => ⟨S800000x1, .f32⟩
  | .hbm, ⟨43, _⟩ => ⟨S100000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S1, .i32⟩
  | .hbm, ⟨53, _⟩ => ⟨S_, .i32⟩
  | .hbm, ⟨54, _⟩ => ⟨S800000x1, .i32⟩
  | .hbm, ⟨55, _⟩ => ⟨S800000x1, .i1⟩
  | .hbm, ⟨56, _⟩ => ⟨S1x1, .i32⟩
  | .hbm, ⟨57, _⟩ => ⟨S800000x1, .i32⟩
  | .hbm, ⟨58, _⟩ => ⟨S800000x1, .i1⟩
  | .hbm, ⟨59, _⟩ => ⟨S800000x1, .i1⟩
  | .hbm, ⟨60, _⟩ => ⟨S_, .i1⟩
  | .hbm, ⟨61, _⟩ => ⟨S800000, .i1⟩
  | .hbm, ⟨62, _⟩ => ⟨S800000x128, .f32⟩
  | .hbm, ⟨63, _⟩ => ⟨S800000x128, .i1⟩
  | .hbm, ⟨64, _⟩ => ⟨S_, .f32⟩
  | .hbm, ⟨65, _⟩ => ⟨S800000x128, .f32⟩
  | .hbm, ⟨66, _⟩ => ⟨S800000x128, .f32⟩
  | .hbm, ⟨67, _⟩ => ⟨S800000x128, .f32⟩
  | .hbm, ⟨68, _⟩ => ⟨S800000x128, .f32⟩
  | .hbm, ⟨69, _⟩ => ⟨S_, .f32⟩
  | .hbm, ⟨70, _⟩ => ⟨S100000x128, .f32⟩
  | .hbm, ⟨71, _⟩ => ⟨S800000x1, .i32⟩
  | .hbm, ⟨72, _⟩ => ⟨S100000x128, .f32⟩
  | .hbm, ⟨73, _⟩ => ⟨S1x128, .f32⟩
  | .hbm, ⟨74, _⟩ => ⟨S100000x1, .f32⟩
  | .hbm, ⟨75, _⟩ => ⟨S100000, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S1, .i32⟩
  | .hbm, ⟨85, _⟩ => ⟨S_, .i32⟩
  | .hbm, ⟨86, _⟩ => ⟨S800000x1, .i32⟩
  | .hbm, ⟨87, _⟩ => ⟨S800000x1, .i1⟩
  | .hbm, ⟨88, _⟩ => ⟨S1x1, .i32⟩
  | .hbm, ⟨89, _⟩ => ⟨S800000x1, .i32⟩
  | .hbm, ⟨90, _⟩ => ⟨S800000x1, .i1⟩
  | .hbm, ⟨91, _⟩ => ⟨S800000x1, .i1⟩
  | .hbm, ⟨92, _⟩ => ⟨S_, .i1⟩
  | .hbm, ⟨93, _⟩ => ⟨S800000, .i1⟩
  | .hbm, ⟨94, _⟩ => ⟨S800000, .f32⟩
  | .hbm, ⟨95, _⟩ => ⟨S_, .f32⟩
  | .hbm, ⟨96, _⟩ => ⟨S800000, .f32⟩
  | .hbm, ⟨97, _⟩ => ⟨S800000, .f32⟩
  | .hbm, ⟨98, _⟩ => ⟨S800000, .f32⟩
  | .hbm, ⟨99, _⟩ => ⟨S800000, .f32⟩
  | .hbm, ⟨100, _⟩ => ⟨S800000x1, .f32⟩
  | .hbm, ⟨101, _⟩ => ⟨S_, .f32⟩
  | .hbm, ⟨102, _⟩ => ⟨S100000x1, .f32⟩
  | .hbm, ⟨103, _⟩ => ⟨S800000x1, .i32⟩
  | .hbm, ⟨104, _⟩ => ⟨S100000x1, .f32⟩
  | .hbm, ⟨105, _⟩ => ⟨S100000x1, .f32⟩
  | .hbm, ⟨106, _⟩ => ⟨S100000x1, .f32⟩
  | .hbm, ⟨107, _⟩ => ⟨S1x1, .f32⟩
  | .hbm, ⟨108, _⟩ => ⟨S100000x1, .f32⟩
  | .hbm, ⟨109, _⟩ => ⟨S100000x1, .f32⟩
  | .hbm, ⟨110, _⟩ => ⟨S_, .f32⟩
  | .hbm, ⟨111, _⟩ => ⟨S64x1, .f32⟩
  | .hbm, ⟨112, _⟩ => ⟨S100000x1, .i32⟩
  | .hbm, ⟨113, _⟩ => ⟨S64x1, .f32⟩
  | .hbm, ⟨114, _⟩ => ⟨S_, .f32⟩
  | .hbm, ⟨115, _⟩ => ⟨S100000, .f32⟩
  | .hbm, ⟨116, _⟩ => ⟨S_, .f32⟩
  | .hbm, ⟨117, _⟩ => ⟨S64, .f32⟩
  | .hbm, ⟨118, _⟩ => ⟨S100000x1, .i32⟩
  | .hbm, ⟨119, _⟩ => ⟨S64, .f32⟩
  | .hbm, ⟨120, _⟩ => ⟨S_, .f32⟩
  | .hbm, ⟨121, _⟩ => ⟨S64, .f32⟩
  | .hbm, ⟨122, _⟩ => ⟨S64, .f32⟩
  | .hbm, ⟨123, _⟩ => ⟨S64x1, .f32⟩
  | .hbm, ⟨124, _⟩ => ⟨S64x1, .f32⟩
  | .hbm, ⟨125, _⟩ => ⟨S64, .f32⟩
  | .local _ .vmem, ⟨0, _⟩ => ⟨S5000x200, .f32⟩
  | .local _ .vmem, ⟨1, _⟩ => ⟨S5000x200, .f32⟩
  | .local _ .vmem, ⟨2, _⟩ => ⟨S200x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x1, .f32⟩
  | .local _ .vmem, ⟨13, _⟩ => ⟨S5000x1, .f32⟩
  | .local _ .vmem, ⟨14, _⟩ => ⟨S5000x1, .f32⟩
  | _, _ => ⟨S100000x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_c : Ref sig .tc := ⟨.hbm, 44, rfl⟩
abbrev main_call0_v0 : Ref sig .tc := ⟨.hbm, 45, rfl⟩
abbrev main_call0_v1 : Ref sig .tc := ⟨.hbm, 46, rfl⟩
abbrev main_call0_c_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_c_1 : Ref sig .tc := ⟨.hbm, 52, rfl⟩
abbrev main_call0_c_2 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_3 : Ref sig .tc := ⟨.hbm, 60, rfl⟩
abbrev main_call0_v12 : Ref sig .tc := ⟨.hbm, 61, rfl⟩
abbrev main_call0_v13 : Ref sig .tc := ⟨.hbm, 62, rfl⟩
abbrev main_call0_v14 : Ref sig .tc := ⟨.hbm, 63, rfl⟩
abbrev main_call0_cst : Ref sig .tc := ⟨.hbm, 64, rfl⟩
abbrev main_call0_v15 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_4 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_call1_c : Ref sig .tc := ⟨.hbm, 76, rfl⟩
abbrev main_call1_v0 : Ref sig .tc := ⟨.hbm, 77, rfl⟩
abbrev main_call1_v1 : Ref sig .tc := ⟨.hbm, 78, rfl⟩
abbrev main_call1_c_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_c_1 : Ref sig .tc := ⟨.hbm, 84, rfl⟩
abbrev main_call1_c_2 : Ref sig .tc := ⟨.hbm, 85, rfl⟩
abbrev main_call1_v6 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_c_3 : Ref sig .tc := ⟨.hbm, 92, rfl⟩
abbrev main_call1_v12 : Ref sig .tc := ⟨.hbm, 93, rfl⟩
abbrev main_call1_v13 : Ref sig .tc := ⟨.hbm, 94, rfl⟩
abbrev main_call1_cst : Ref sig .tc := ⟨.hbm, 95, rfl⟩
abbrev main_call1_v14 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_cst_5 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_cst_6 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_cst_7 : Ref sig .tc := ⟨.hbm, 114, rfl⟩
abbrev main_v54 : Ref sig .tc := ⟨.hbm, 115, rfl⟩
abbrev main_cst_8 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_cst_9 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S100000 : S_.BroadcastsInDim S100000 (![] : Fin 0 → Fin S100000.rank)
  bcast_S800000_S800000x1_0 : S800000.BroadcastsInDim S800000x1 (![0] : Fin 1 → Fin S800000x1.rank)
  shapeCasts_S100000_S100000x1 : S100000.ShapeCasts S100000x1
  bcast_S_S800000 : S_.BroadcastsInDim S800000 (![] : Fin 0 → Fin S800000.rank)
  shapeCasts_S800000_S800000x1 : S800000.ShapeCasts S800000x1
  inb_S5000x200_S5000x200_0_0 : ∀ a, (![0, 0] : Fin 2 → Nat) a + S5000x200.size a ≤ S5000x200.size a
  h_S5000x200 : 0 < S5000x200.numel
  bitsLt_bf16_f32 : FTy.bits .bf16 < FTy.bits .f32
  inb_S200x128_S200x128_0_0 : ∀ a, (![0, 0] : Fin 2 → Nat) a + S200x128.size a ≤ S200x128.size a
  h_S200x128 : 0 < S200x128.numel
  inb_S5000x128_S5000x128_0_0 : ∀ a, (![0, 0] : Fin 2 → Nat) a + S5000x128.size a ≤ S5000x128.size a
  h_S5000x128 : 0 < S5000x128.numel
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  shapeCasts_S100000x1_S100000 : S100000x1.ShapeCasts S100000
  shapeCasts_S800000x1_S800000 : S800000x1.ShapeCasts S800000
  bcast_S_S100000x1 : S_.BroadcastsInDim S100000x1 (![] : Fin 0 → Fin S100000x1.rank)
  bcast_S1x1_S100000x1_0_1 : S1x1.BroadcastsInDim S100000x1 (![0, 1] : Fin 2 → Fin S100000x1.rank)
  bcast_S_S64x1 : S_.BroadcastsInDim S64x1 (![] : Fin 0 → Fin S64x1.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  shapeCasts_S64x1_S64 : S64x1.ShapeCasts S64
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  dot_S5000x200_S200x128_S5000x128_1_0_0_1_n_n_wf : DotDims.WF S5000x200 S200x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x1_S5000x1_1_0_0_1_n_n_wf : DotDims.WF S5000x128 S128x1 S5000x1 [1] [0] [0] [1] [] []
  scatter_S100000x1_S800000x1_S800000x1_1_0_0_1_wf : ScatterDims.WF S100000x1 S800000x1 S800000x1 [1] [0] [0] 1
  scatter_S64x1_S100000x1_S100000x1_1_0_0_1_wf : ScatterDims.WF S64x1 S100000x1 S100000x1 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x200.size a ≤ S100000x200.size a
  hwx0_0 : ∀ i : grid0.Coords, EltTy.bits .f32 = 32 ∨ (Rect.block (s := S100000x200) S5000x200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x128.size a ≤ S200x128.size a
  hwx0_1 : ∀ i : grid0.Coords, EltTy.bits .f32 = 32 ∨ (Rect.block (s := S200x128) S200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x1.size a ≤ S128x1.size a
  hwx1_4 : ∀ i : grid1.Coords, EltTy.bits .f32 = 32 ∨ (Rect.block (s := S128x1) S128x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S100000x1.size a
  hwx1_5 : ∀ i : grid1.Coords, EltTy.bits .f32 = 32 ∨ (Rect.block (s := S100000x1) S5000x1.size (cc1_transform_5 i) (hinb1_5 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def dot_S5000x200_S200x128_S5000x128_1_0_0_1_n_n : DotDims S5000x200 S200x128 S5000x128 where
  lhsContracting := [1]
  rhsContracting := [0]
  lhsNonContracting := [0]
  rhsNonContracting := [1]
  lhsBatch := []
  rhsBatch := []
  wf := dot_S5000x200_S200x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def scatter_S100000x1_S800000x1_S800000x1_1_0_0_1 : ScatterDims S100000x1 S800000x1 S800000x1 where
  updateWindowDims := [1]
  insertedWindowDims := [0]
  scatterDimsToOperandDims := [0]
  indexVectorDim := 1
  wf := scatter_S100000x1_S800000x1_S800000x1_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S5000x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S200x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x200 : Shape := ⟨2, ![100000, 200]⟩
abbrev S2x800000 : Shape := ⟨2, ![2, 800000]⟩
abbrev S800000 : Shape := ⟨1, ![800000]⟩
abbrev S100000 : Shape := ⟨1, ![100000]⟩
abbrev S200x128 : Shape := ⟨2, ![200, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S100000x128 : Shape := ⟨2, ![100000, 128]⟩
abbrev S_ : Shape := ⟨0, ![]⟩
abbrev S800000x1 : Shape := ⟨2, ![800000, 1]⟩
abbrev S800000x128 : Shape := ⟨2, ![800000, 128]⟩
abbrev S100000x1 : Shape := ⟨2, ![100000, 1]⟩
abbrev S1x128 : Shape := ⟨2, ![1, 128]⟩
abbrev S1x1 : Shape := ⟨2, ![1, 1]⟩
abbrev S64x1 : Shape := ⟨2, ![64, 1]⟩
abbrev S64 : Shape := ⟨1, ![64]⟩

abbrev nBuf : Space → Nat
  | .hbm => 135
  | .vmem => 0
  | .smem => 0
  | _ => 0

abbrev hbmTy0_0 (i : Nat) : BufTy := match i % 128 with
  | 0 => ⟨S100000x200, .f32⟩
  | 1 => ⟨S2x800000, .i32⟩
  | 2 => ⟨S800000, .f32⟩
  | 3 => ⟨S100000, .i32⟩
  | 4 => ⟨S200x128, .f32⟩
  | 5 => ⟨S128, .f32⟩
  | 6 => ⟨S128x1, .f32⟩
  | 7 => ⟨S1, .f32⟩
  | 8 => ⟨S1x800000, .i32⟩
  | 9 => ⟨S800000, .i32⟩
  | 10 => ⟨S1x800000, .i32⟩
  | 11 => ⟨S800000, .i32⟩
  | 12 => ⟨S100000x128, .f32⟩
  | 13 => ⟨S_, .f32⟩
  | 14 => ⟨S100000, .f32⟩
  | 15 => ⟨S800000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000, .f32⟩
  | 30 => ⟨S800000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S800000x1, .f32⟩
  | 51 => ⟨S800000x128, .f32⟩
  | 52 => ⟨S800000x128, .f32⟩
  | 53 => ⟨S_, .f32⟩
  | 54 => ⟨S100000x128, .f32⟩
  | 55 => ⟨S800000x1, .i32⟩
  | 56 => ⟨S100000x128, .f32⟩
  | 57 => ⟨S100000, .f32⟩
  | 58 => ⟨S100000x1, .f32⟩
  | 59 => ⟨S100000x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000x1, .f32⟩
  | 69 => ⟨S_, .f32⟩
  | 70 => ⟨S100000, .f32⟩
  | 71 => ⟨S800000x1, .i32⟩
  | 72 => ⟨S100000, .f32⟩
  | 73 => ⟨S_, .f32⟩
  | 74 => ⟨S100000, .f32⟩
  | 75 => ⟨S100000, .f32⟩
  | 76 => ⟨S100000, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000, .f32⟩
  | 86 => ⟨S800000, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000, .f32⟩
  | 96 => ⟨S800000, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x1, .f32⟩
  | 106 => ⟨S800000x1, .f32⟩
  | 107 => ⟨S800000x1, .f32⟩
  | 108 => ⟨S_, .f32⟩
  | 109 => ⟨S100000x1, .f32⟩
  | 110 => ⟨S800000x1, .i32⟩
  | 111 => ⟨S100000x1, .f32⟩
  | 112 => ⟨S100000, .f32⟩
  | 113 => ⟨S100000x1, .f32⟩
  | 114 => ⟨S100000x1, .f32⟩
  | 115 => ⟨S100000x1, .f32⟩
  | 116 => ⟨S1x1, .f32⟩
  | 117 => ⟨S100000x1, .f32⟩
  | 118 => ⟨S100000x1, .f32⟩
  | 119 => ⟨S_, .f32⟩
  | 120 => ⟨S64x1, .f32⟩
  | 121 => ⟨S100000x1, .i32⟩
  | 122 => ⟨S64x1, .f32⟩
  | 123 => ⟨S_, .f32⟩
  | 124 => ⟨S100000, .f32⟩
  | 125 => ⟨S_, .f32⟩
  | 126 => ⟨S64, .f32⟩
  | 127 => ⟨S100000x1, .i32⟩
  | _ => ⟨S100000x200, .f32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S64x1, .f32⟩
  | 5 => ⟨S64x1, .f32⟩
  | 6 => ⟨S64, .f32⟩
  | _ => ⟨S100000x200, .f32⟩

abbrev hbmTy (i : Nat) : BufTy := match i / 128 with
  | 0 => hbmTy0_0 i
  | 1 => hbmTy0_1 i
  | _ => ⟨S100000x200, .f32⟩

abbrev bufTy : (tb : Table) → Fin (tcTables nBuf tb) → BufTy
  | .hbm, ⟨i, _⟩ => hbmTy i
  | _, _ => ⟨S100000x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_9 : Ref sig .tc := ⟨.hbm, 77, rfl⟩
abbrev main_v56 : Ref sig .tc := ⟨.hbm, 78, rfl⟩
abbrev main_v57 : Ref sig .tc := ⟨.hbm, 79, rfl⟩
abbrev main_c_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_11 : Ref sig .tc := ⟨.hbm, 87, rfl⟩
abbrev main_v64 : Ref sig .tc := ⟨.hbm, 88, rfl⟩
abbrev main_v65 : Ref sig .tc := ⟨.hbm, 89, rfl⟩
abbrev main_c_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_13 : Ref sig .tc := ⟨.hbm, 97, rfl⟩
abbrev main_v72 : Ref sig .tc := ⟨.hbm, 98, rfl⟩
abbrev main_v73 : Ref sig .tc := ⟨.hbm, 99, rfl⟩
abbrev main_c_14 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_15 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_16 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_17 : Ref sig .tc := ⟨.hbm, 123, rfl⟩
abbrev main_v94 : Ref sig .tc := ⟨.hbm, 124, rfl⟩
abbrev main_cst_18 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_19 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S100000 : S_.BroadcastsInDim S100000 (![] : Fin 0 → Fin S100000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S64x1 : S_.BroadcastsInDim S64x1 (![] : Fin 0 → Fin S64x1.rank)
  bcast_S_S64 : S_.BroadcastsInDim S64 (![] : Fin 0 → Fin S64.rank)
  bcast_S64_S64x1_0 : S64.BroadcastsInDim S64x1 (![0] : Fin 1 → Fin S64x1.rank)
  shapeCasts_S64x1_S64 : S64x1.ShapeCasts S64
  dot_S100000x200_S200x128_S100000x128_1_0_0_1_n_n_wf : DotDims.WF S100000x200 S200x128 S100000x128 [1] [0] [0] [1] [] []
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x1_S100000x1_1_0_0_1_n_n_wf : DotDims.WF S100000x128 S128x1 S100000x1 [1] [0] [0] [1] [] []
  gather_S100000x1_S800000x1_S800000x1_1_0_n_n_0_1_11_wf : GatherDims.WF S100000x1 S800000x1 S800000x1 [1] [0] [] [0] [] 1 ![1, 1]
  scatter_S100000x1_S800000x1_S800000x1_1_0_0_1_wf : ScatterDims.WF S100000x1 S800000x1 S800000x1 [1] [0] [0] 1
  scatter_S64x1_S100000x1_S100000x1_1_0_0_1_wf : ScatterDims.WF S64x1 S100000x1 S100000x1 [1] [0] [0] 1
  scatter_S64_S100000x1_S100000_n_0_0_1_wf : ScatterDims.WF S64 S100000x1 S100000 [] [0] [0] 1

variable [Facts₀]

def dot_S100000x200_S200x128_S100000x128_1_0_0_1_n_n : DotDims S100000x200 S200x128 S100000x128 where
  lhsContracting := [1]
  rhsContracting := [0]
  lhsNonContracting := [0]
  rhsNonContracting := [1]
  lhsBatch := []
  rhsBatch := []
  wf := dot_S100000x200_S200x128_S100000x128_1_0_0_1_n_n_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S800000x1_S800000x1_1_0_n_n_0_1_11 : GatherDims S100000x1 S800000x1 S800000x1 where
  offsetDims := [1]
  collapsedSliceDims := [0]
  operandBatchingDims := []
  startIndicesBatchingDims := []
  startIndexMap := [0]
  indexVectorDim := 1
  sliceSizes := ![1, 1]
  wf := gather_S100000x1_S800000x1_S800000x1_1_0_n_n_0_1_11_wf
def scatter_S100000x1_S800000x1_S800000x1_1_0_0_1 : ScatterDims S100000x1 S800000x1 S800000x1 where
  updateWindowDims := [1]
  insertedWindowDims := [0]
  scatterDimsToOperandDims := [0]
  indexVectorDim := 1
  wf := scatter_S100000x1_S800000x1_S800000x1_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.Spec.lean ====
/-
  The network both programs compute, written once as a composition of whole-array stages over the argument arrays:
  a two-layer graph convolution with edge weights and self loops, then a mean over graphs.
  With E = 800000 edges (src e → dst e, weight ew e) over N = 100000 nodes:
    deg = 1 + Σ_{dst e = n} ew e,  dis = deg^(-1/2),  norm e = dis[src e] · ew e · dis[dst e],
    layer(z) n = Σ_{dst e = n} z[src e] · norm e + z n · dis n² + bias,
    result = mean over each graph of layer₂(relu(layer₁(X·W1))·W2).
  Every stage is the reference's own operation on the reference's own operands, so the reference's composed term
  is this composition by unfolding; the stages that the kernel computes differently (the two matrix products, the
  two row gathers) are parameters of the later stages, so that the kernel's values can be put in their place.
-/
import proofs.«404754_j41094247088649_2_alg».proof.ReferenceIdeal
import proofs.«404754_j41094247088649_2_alg».proof.Proof.Gen.ReferenceIdeal
import proofs.«404754_j41094247088649_2_alg».proof.Proof.Gen.ReferenceIdeal.Run

noncomputable section

namespace Cert.Spec

open Idealize.ShloMosaic Cert.ReferenceIdeal Cert.ReferenceIdeal.Gen

variable {F : FTy → Type} [FloatOps F]

/-- The edges' source nodes: row 0 of the edge list. -/
def src (ei : IVec S2x800000 32) : IVec S800000 32 :=
  shapeCast S800000 (extractStridedSlice S1x800000 ![0, 0] ei slices_S2x800000_S1x800000_0_0) shapeCasts_S1x800000_S800000

/-- The edges' destination nodes: row 1 of the edge list. -/
def dst (ei : IVec S2x800000 32) : IVec S800000 32 :=
  shapeCast S800000 (extractStridedSlice S1x800000 ![1, 0] ei slices_S2x800000_S1x800000_1_0) shapeCasts_S1x800000_S800000

/-- A node index counted from the end (negative) is moved into range by adding N; any other is kept. -/
def wrap (i : IVec S800000 32) : IVec S800000 32 :=
  select (cmpi .slt i (broadcastInDim S800000 ![] bcast_S_S800000 (constantI S_ 32 0#32)))
    (addi i (broadcastInDim S800000 ![] bcast_S_S800000 (constantI S_ 32 100000#32))) i

/-- An index vector as the one-column matrix a gather or scatter takes. -/
def col (i : IVec S800000 32) : IVec S800000x1 32 := broadcastInDim S800000x1 ![0] bcast_S800000_S800000x1_0 i

/-- deg n = 1 + the weights of the edges into n. -/
def deg (ei : IVec S2x800000 32) (ew : FVec F S800000 .f32) : FVec F S100000 .f32 :=
  addf (Host.scatterAdd scatter_S100000_S800000x1_S800000_n_0_0_1
      (broadcastInDim S100000 ![] bcast_S_S100000 (constant S_ .f32 0x00000000#32)) (col (dst ei)) ew)
    (broadcastInDim S100000 ![] bcast_S_S100000 (constant S_ .f32 0x3F800000#32))

/-- dis = deg^(-1/2). -/
def dis (ei : IVec S2x800000 32) (ew : FVec F S800000 .f32) : FVec F S100000 .f32 := Host.rsqrt (deg ei ew)

/-- norm e = dis[src e] · ew e · dis[dst e]. -/
def norm (ei : IVec S2x800000 32) (ew : FVec F S800000 .f32) : FVec F S800000 .f32 :=
  mulf (mulf (Host.gather gather_S100000_S800000x1_S800000_n_0_n_n_0_1_1 (dis ei ew) (col (wrap (src ei)))) ew)
    (Host.gather gather_S100000_S800000x1_S800000_n_0_n_n_0_1_1 (dis ei ew) (col (wrap (dst ei))))

/-- The first layer's features X·W1. -/
def xw (X : FVec F S100000x200 .f32) (W1 : FVec F S200x128 .f32) : FVec F S100000x128 .f32 :=
  Host.dotGeneral dot_S100000x200_S200x128_S100000x128_1_0_0_1_n_n none X W1

/-- The rows of a feature matrix at the edges' sources. -/
def rowsAtSrc (ei : IVec S2x800000 32) (z : FVec F S100000x128 .f32) : FVec F S800000x128 .f32 :=
  Host.gather gather_S100000x128_S800000x1_S800000x128_1_0_n_n_0_1_1128 z (col (wrap (src ei)))

/-- agg n = Σ_{dst e = n} g e · norm e, for the gathered rows g. -/
def agg (ei : IVec S2x800000 32) (ew : FVec F S800000 .f32) (g : FVec F S800000x128 .f32) : FVec F S100000x128 .f32 :=
  Host.scatterAdd scatter_S100000x128_S800000x1_S800000x128_1_0_0_1
    (broadcastInDim S100000x128 ![] bcast_S_S100000x128 (constant S_ .f32 0x00000000#32)) (col (dst ei))
    (mulf g (broadcastInDim S800000x128 ![0, 1] bcast_S800000x1_S800000x128_0_1
      (broadcastInDim S800000x1 ![0] bcast_S800000_S800000x1_0 (norm ei ew))))

/-- relu(a + z · d + b), the column d spread along the rows' entries and the row b along the rows. -/
def hiddenOf (a z : FVec F S100000x128 .f32) (d : FVec F S100000x1 .f32) (b : FVec F S1x128 .f32) : FVec F S100000x128 .f32 :=
  maximumf
    (addf (addf a (mulf z (broadcastInDim S100000x128 ![0, 1] bcast_S100000x1_S100000x128_0_1 d)))
      (broadcastInDim S100000x128 ![0, 1] bcast_S1x128_S100000x128_0_1 b))
    (broadcastInDim S100000x128 ![] bcast_S_S100000x128 (constant S_ .f32 0x00000000#32))

/-- The hidden layer relu(agg + z · dis² + b1), z the first layer's features. -/
def hidden (ei : IVec S2x800000 32) (ew : FVec F S800000 .f32) (a z : FVec F S100000x128 .f32) (b1 : FVec F S128 .f32) :
    FVec F S100000x128 .f32 :=
  hiddenOf a z (broadcastInDim S100000x1 ![0] bcast_S100000_S100000x1_0 (mulf (dis ei ew) (dis ei ew)))
    (broadcastInDim S1x128 ![1] bcast_S128_S1x128_1 b1)

/-- The second layer's features h·W2. -/
def hw (h : FVec F S100000x128 .f32) (W2 : FVec F S128x1 .f32) : FVec F S100000x1 .f32 :=
  Host.dotGeneral dot_S100000x128_S128x1_S100000x1_1_0_0_1_n_n none h W2

/-- The entries of a one-column feature matrix at the edges' sources. -/
def colAtSrc (ei : IVec S2x800000 32) (z : FVec F S100000x1 .f32) : FVec F S800000x1 .f32 :=
  Host.gather gather_S100000x1_S800000x1_S800000x1_1_0_n_n_0_1_11 z (col (wrap (src ei)))

/-- The second layer: Σ_{dst e = n} g e · norm e + z n · dis n² + b2. -/
def out2 (ei : IVec S2x800000 32) (ew : FVec F S800000 .f32) (g : FVec F S800000x1 .f32) (z : FVec F S100000x1 .f32)
    (b2 : FVec F S1 .f32) : FVec F S100000x1 .f32 :=
  addf (addf (Host.scatterAdd scatter_S100000x1_S800000x1_S800000x1_1_0_0_1
        (broadcastInDim S100000x1 ![] bcast_S_S100000x1 (constant S_ .f32 0x00000000#32)) (col (dst ei))
        (mulf g (broadcastInDim S800000x1 ![0] bcast_S800000_S800000x1_0 (norm ei ew))))
      (mulf z (broadcastInDim S100000x1 ![0] bcast_S100000_S100000x1_0 (mulf (dis ei ew) (dis ei ew)))))
    (broadcastInDim S100000x1 ![0, 1] bcast_S1x1_S100000x1_0_1 (broadcastInDim S1x1 ![1] bcast_S1_S1x1_1 b2))

/-- The mean of a node quantity over each graph: the sum over the graph's nodes over max(count, 1). -/
def pool (batch : IVec S100000 32) (o : FVec F S100000x1 .f32) : FVec F S64 .f32 :=
  shapeCast S64 (Host.divf
    (Host.scatterAdd scatter_S64x1_S100000x1_S100000x1_1_0_0_1
      (broadcastInDim S64x1 ![] bcast_S_S64x1 (constant S_ .f32 0x00000000#32))
      (broadcastInDim S100000x1 ![0] bcast_S100000_S100000x1_0 batch) o)
    (broadcastInDim S64x1 ![0] bcast_S64_S64x1_0
      (maximumf
        (Host.scatterAdd scatter_S64_S100000x1_S100000_n_0_0_1
          (broadcastInDim S64 ![] bcast_S_S64 (constant S_ .f32 0x00000000#32))
          (broadcastInDim S100000x1 ![0] bcast_S100000_S100000x1_0 batch)
          (broadcastInDim S100000 ![] bcast_S_S100000 (constant S_ .f32 0x3F800000#32)))
        (broadcastInDim S64 ![] bcast_S_S64 (constant S_ .f32 0x3F800000#32))))) shapeCasts_S64x1_S64

/-- The whole network, from the first layer's features z and the second layer's features of the hidden layer built on them. -/
def result (X : FVec F S100000x200 .f32) (ei : IVec S2x800000 32) (ew : FVec F S800000 .f32) (batch : IVec S100000 32)
    (W1 : FVec F S200x128 .f32) (b1 : FVec F S128 .f32) (W2 : FVec F S128x1 .f32) (b2 : FVec F S1 .f32) : FVec F S64 .f32 :=
  pool batch (out2 ei ew
    (colAtSrc ei (hw (hidden ei ew (agg ei ew (rowsAtSrc ei (xw X W1))) (xw X W1) b1) W2))
    (hw (hidden ei ew (agg ei ew (rowsAtSrc ei (xw X W1))) (xw X W1) b1) W2) b2)

set_option maxRecDepth 8192 in
/-- The reference's composed term is the network. -/
theorem ref_eq (m : (ℓ : Loc nD τ sig) → Buf (Elt F) ℓ) (c : Dev nD) :
    Cert.ReferenceIdeal.Value.res_main_v102 (F := F) m c
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v102
  rfl

end Cert.Spec

end
-- ==== Proof.KDefs.lean ====
/-
  The kernel's two row gathers are "take with fill": the node index is moved into range as the reference's is
  (a negative one counted from the end), the rows are gathered at the moved index, and where the moved index
  is still outside [0, N-1] the gathered value is replaced by a fill value. These are those operations, as the
  kernel's host program spells them, over the shared index stages of the network.
-/
import proofs.«404754_j41094247088649_2_alg».proof.KernelIdeal
import proofs.«404754_j41094247088649_2_alg».proof.Proof.Gen.KernelIdeal
import proofs.«404754_j41094247088649_2_alg».proof.Proof.Spec

noncomputable section

namespace Cert.KSide

open Idealize.ShloMosaic Cert.ReferenceIdeal Cert.ReferenceIdeal.Gen

variable {F : FTy → Type} [FloatOps F]

/-- Whether a (moved) node index lies in [0, N-1], per edge: the conjunction over the index's one column of
    0 ≤ i and i ≤ N-1. -/
def inRange (i : IVec S800000 32) : IVec S800000 1 :=
  Host.reduce IntOp.andi
    (andi (cmpi .sge (Cert.Spec.col i) (broadcastInDim S800000x1 ![] Cert.KernelIdeal.Gen.bcast_S_S800000x1 (constantI S_ 32 0#32)))
      (cmpi .sle (Cert.Spec.col i) (broadcastInDim S800000x1 ![0, 1] Cert.KernelIdeal.Gen.bcast_S1x1_S800000x1_0_1
        (broadcastInDim S1x1 ![1] bcast_S1_S1x1_1 (constantI S1 32 99999#32)))))
    (constantI S_ 1 1#1) Cert.KernelIdeal.Gen.reducesTo_S800000x1_S800000_d1 Cert.KernelIdeal.Gen.h_S_

/-- The rows of a feature matrix at the sources s, a fill value where the moved source is out of range. -/
def takeRows (z : FVec F S100000x128 .f32) (s : IVec S800000 32) : FVec F S800000x128 .f32 :=
  select (broadcastInDim S800000x128 ![0] Cert.KernelIdeal.Gen.bcast_S800000_S800000x128_0 (inRange (Cert.Spec.wrap s)))
    (Host.gather gather_S100000x128_S800000x1_S800000x128_1_0_n_n_0_1_1128 z (Cert.Spec.col (Cert.Spec.wrap s)))
    (broadcastInDim S800000x128 ![] Cert.KernelIdeal.Gen.bcast_S_S800000x128 (constant S_ .f32 0x7FC00000#32))

/-- The entries of a feature vector at the sources s, a fill value where the moved source is out of range. -/
def takeEntries (z : FVec F S100000 .f32) (s : IVec S800000 32) : FVec F S800000 .f32 :=
  select (inRange (Cert.Spec.wrap s))
    (Host.gather gather_S100000_S800000x1_S800000_n_0_n_n_0_1_1 z (Cert.Spec.col (Cert.Spec.wrap s)))
    (broadcastInDim S800000 ![] bcast_S_S800000 (constant S_ .f32 0x7FC00000#32))

end Cert.KSide

end
-- ==== Proof.TakeFill.lean ====
/-
  Taking with fill, where nothing is filled. The precondition bounds every edge's source by -N ≤ src e < N; moved by N
  when negative it lies in [0, N-1], so the in-range mask of the moved sources is 1 at every edge, and a select on a
  mask that is 1 everywhere is its first operand: the kernel's two takes are the plain gathers at the moved sources.
-/
import proofs.«404754_j41094247088649_2_alg».proof.Pre_finite_inputs
import proofs.«404754_j41094247088649_2_alg».proof.Proof.Gen.Pre_finite_inputs
import proofs.«404754_j41094247088649_2_alg».proof.Proof.KDefs
import Idealize.ShloMosaic.Lib.StableHlo.Predicate
import Idealize.ShloMosaic.Lib.ReduceAll
import Idealize.ShloMosaic.Lib.ValueIdx
import Idealize.ShloMosaic.Lib.Pipeline.Value

noncomputable section

namespace Cert.KSide

open Idealize.ShloMosaic Cert.ReferenceIdeal Cert.ReferenceIdeal.Gen

/-- A 32-bit word x with -N ≤ x < N as signed words, moved by N when negative, lies in [0, N-1] (N = 100000). -/
theorem takeFill_wrap_word (x : BitVec 32)
    (hge : IntOp.cmpi .sge x 4294867296#32 = 1#1) (hlt : IntOp.cmpi .slt x 100000#32 = 1#1) :
    IntOp.cmpi .sge (Scalar.select (IntOp.cmpi .slt x 0#32) (IntOp.addi x 100000#32) x) 0#32 = 1#1 ∧
    IntOp.cmpi .sle (Scalar.select (IntOp.cmpi .slt x 0#32) (IntOp.addi x 100000#32) x) 99999#32 = 1#1 := by
  have h1 : (4294867296#32 : BitVec 32).toInt = -100000 := by decide
  have h2 : (100000#32 : BitVec 32).toInt = 100000 := by decide
  have h3 : (0#32 : BitVec 32).toInt = 0 := by decide
  have h4 : (99999#32 : BitVec 32).toInt = 99999 := by decide
  rw [IntOp.cmpi_sge, h1] at hge
  rw [IntOp.cmpi_slt, h2] at hlt
  rw [IntOp.cmpi_sge, IntOp.cmpi_sle, h3, h4]
  by_cases hneg : x.toInt < 0
  · have hc : IntOp.cmpi .slt x 0#32 = 1#1 := by rw [IntOp.cmpi_slt, h3]; exact hneg
    rw [hc, ValueIdx.select_one]
    have hs : (IntOp.addi x 100000#32).toInt = x.toInt + 100000 := by
      unfold IntOp.addi
      rw [BitVec.toInt_add, h2]
      apply Int.bmod_eq_of_le <;> omega
    rw [hs]
    omega
  · have hc : ¬ IntOp.cmpi .slt x 0#32 = 1#1 := by rw [IntOp.cmpi_slt, h3]; exact hneg
    rw [ValueIdx.eq_zero_of_ne_one hc, ValueIdx.select_zero]
    omega

/-- A left fold by "and" over one-bit words from 1 that meets only 1s is 1. -/
theorem takeFill_foldl_andi_one {ι : Type} (f : ι → BitVec 1) :
    ∀ (l : List ι) (init : BitVec 1), init = 1#1 → (∀ n ∈ l, f n = 1#1) →
      l.foldl (fun r n => IntOp.andi r (f n)) init = 1#1
  | [], init, h, _ => h
  | a :: l, init, h, hl => by
    rw [List.foldl_cons]
    refine takeFill_foldl_andi_one f l _ ?_ (fun n hn => hl n (List.mem_cons_of_mem _ hn))
    rw [h, hl a List.mem_cons_self]; decide

/-- The one-column matrix of an index vector reads, at a row, the vector at that row. -/
theorem takeFill_col_apply (i : IVec S800000 32) (j : S800000x1.Idx) (e : S800000.Idx) (he : (e 0).val = (j 0).val) :
    Cert.Spec.col i j = i e := by
  unfold Cert.Spec.col
  refine broadcastInDim_apply _ _ _ _ e ?_
  intro a
  have ha : a = 0 := Subsingleton.elim _ _
  subst ha
  rw [if_neg (by decide)]
  exact he

/-- Whether an index is in range, per edge, from the two word comparisons at that edge. -/
theorem takeFill_inRange_eq_one (i : IVec S800000 32) (e : S800000.Idx)
    (h0 : IntOp.cmpi .sge (i e) 0#32 = 1#1) (h1 : IntOp.cmpi .sle (i e) 99999#32 = 1#1) : inRange i e = 1#1 := by
  unfold inRange
  rw [Host.reduce_eq_foldl]
  refine takeFill_foldl_andi_one _ _ _ rfl ?_
  intro j hj
  have hd : Cert.KernelIdeal.Gen.reducesTo_S800000x1_S800000_d1.drop j = e := by
    simpa using (List.mem_filter.1 hj).2
  have he : (e 0).val = (j 0).val := by
    rw [← hd]; exact Shape.ReducesTo.drop_apply_val _ j 0
  show IntOp.andi (IntOp.cmpi .sge (Cert.Spec.col i j) _) (IntOp.cmpi .sle (Cert.Spec.col i j) _) = 1#1
  rw [takeFill_col_apply i j e he]
  exact IntOp.andi_eq_one.2 ⟨h0, h1⟩

/-- Under the precondition every edge's source, moved into range from the end if negative, lies in [0, N-1]:
    the precondition's last conjunct says -N ≤ src e < N for every edge e. -/
theorem src_inRange (a0 : FVec Ideal S100000x200 .f32) (a1 : IVec S2x800000 32) (a2 : FVec Ideal S800000 .f32) (a3 : IVec S100000 32)
    (a4 : FVec Ideal S200x128 .f32) (a5 : FVec Ideal S128 .f32) (a6 : FVec Ideal S128x1 .f32) (a7 : FVec Ideal S1 .f32)
    (hpre : Cert.Pre_finite_inputs.fn (F := Ideal) a0 a1 a2 a3 a4 a5 a6 a7 = fun _ => 1#1) :
    ∀ e : S800000.Idx, inRange (Cert.Spec.wrap (Cert.Spec.src a1)) e = 1#1 := by
  intro e
  haveI : Subsingleton S_.Idx := ⟨fun a b => funext fun d => d.elim0⟩
  have h := congrFun hpre ValueIdx.ix0
  dsimp only [Cert.Pre_finite_inputs.fn, Cert.Pre_finite_inputs.fn_part1, Cert.Pre_finite_inputs.fn_part2] at h
  obtain ⟨_, h2⟩ := IntOp.andi_eq_one.1 h
  have h3 := Host.reduce_andi_all _ _ _ _ _ h2 e
  obtain ⟨hge, hlt⟩ := IntOp.andi_eq_one.1 h3
  have hw := takeFill_wrap_word (Cert.Spec.src a1 e) hge hlt
  exact takeFill_inRange_eq_one _ e hw.1 hw.2

variable {F : FTy → Type} [FloatOps F]

/-- Where every moved source is in range, taking rows with fill is the plain gather at the moved sources. -/
theorem takeRows_eq (z : FVec F S100000x128 .f32) (s : IVec S800000 32) (h : ∀ e : S800000.Idx, inRange (Cert.Spec.wrap s) e = 1#1) :
    takeRows z s = Host.gather gather_S100000x128_S800000x1_S800000x128_1_0_n_n_0_1_1128 z (Cert.Spec.col (Cert.Spec.wrap s)) := by
  funext i
  unfold takeRows
  have hm : broadcastInDim S800000x128 ![0] Cert.KernelIdeal.Gen.bcast_S800000_S800000x128_0 (inRange (Cert.Spec.wrap s)) i = 1#1 := h _
  rw [ValueIdx.select_apply, hm, ValueIdx.select_one]

/-- Where every moved source is in range, taking entries with fill is the plain gather at the moved sources. -/
theorem takeEntries_eq (z : FVec F S100000 .f32) (s : IVec S800000 32) (h : ∀ e : S800000.Idx, inRange (Cert.Spec.wrap s) e = 1#1) :
    takeEntries z s = Host.gather gather_S100000_S800000x1_S800000_n_0_n_n_0_1_1 z (Cert.Spec.col (Cert.Spec.wrap s)) := by
  funext i
  unfold takeEntries
  rw [ValueIdx.select_apply, h i, ValueIdx.select_one]

end Cert.KSide

end
-- ==== Proof.KStages.lean ====
/-
  Two stages of the network with their operands left open, so that either program's values can be put in:
  the aggregation of gathered rows over the edges into the destination nodes, and the second layer's sum.
-/
import proofs.«404754_j41094247088649_2_alg».proof.Proof.Spec

noncomputable section

namespace Cert.KSide

open Idealize.ShloMosaic Cert.ReferenceIdeal Cert.ReferenceIdeal.Gen

variable {F : FTy → Type} [FloatOps F]

/-- agg n = Σ_{d e = n} g e · nc e, the edge weights nc given as one column. -/
def aggOf (d : IVec S800000 32) (g : FVec F S800000x128 .f32) (nc : FVec F S800000x1 .f32) : FVec F S100000x128 .f32 :=
  Host.scatterAdd scatter_S100000x128_S800000x1_S800000x128_1_0_0_1
    (broadcastInDim S100000x128 ![] bcast_S_S100000x128 (constant S_ .f32 0x00000000#32)) (Cert.Spec.col d)
    (mulf g (broadcastInDim S800000x128 ![0, 1] bcast_S800000x1_S800000x128_0_1 nc))

/-- Σ_{d e = n} gn e + z n · dq n + b2. -/
def out2Of (d : IVec S800000 32) (gn : FVec F S800000x1 .f32) (z dq : FVec F S100000x1 .f32) (b2 : FVec F S1 .f32) :
    FVec F S100000x1 .f32 :=
  addf (addf (Host.scatterAdd scatter_S100000x1_S800000x1_S800000x1_1_0_0_1
        (broadcastInDim S100000x1 ![] bcast_S_S100000x1 (constant S_ .f32 0x00000000#32)) (Cert.Spec.col d) gn)
      (mulf z dq))
    (broadcastInDim S100000x1 ![0, 1] bcast_S1x1_S100000x1_0_1 (broadcastInDim S1x1 ![1] bcast_S1_S1x1_1 b2))

/-- The network's aggregation is this stage at the destinations and the normalised weights. -/
theorem agg_eq (ei : IVec S2x800000 32) (ew : FVec F S800000 .f32) (g : FVec F S800000x128 .f32) :
    Cert.Spec.agg ei ew g = aggOf (Cert.Spec.dst ei) g (broadcastInDim S800000x1 ![0] bcast_S800000_S800000x1_0 (Cert.Spec.norm ei ew)) := rfl

/-- The network's second layer is this stage at the destinations, the weighted gathered entries and dis². -/
theorem out2_eq (ei : IVec S2x800000 32) (ew : FVec F S800000 .f32) (g : FVec F S800000x1 .f32) (z : FVec F S100000x1 .f32)
    (b2 : FVec F S1 .f32) :
    Cert.Spec.out2 ei ew g z b2 = out2Of (Cert.Spec.dst ei) (mulf g (broadcastInDim S800000x1 ![0] bcast_S800000_S800000x1_0 (Cert.Spec.norm ei ew))) z
      (broadcastInDim S100000x1 ![0] bcast_S100000_S100000x1_0 (mulf (Cert.Spec.dis ei ew) (Cert.Spec.dis ei ew))) b2 := rfl

end Cert.KSide

end
-- ==== Proof.KWalk.lean ====
/-
  The kernel's host program between its two regions, read stage by stage: what each buffer that a later stage
  reads holds at each boundary (the first region's entry, its exit, the second region's entry and exit, the return),
  as the network's stages of the buffers at the boundary before.
-/
import proofs.«404754_j41094247088649_2_alg».proof.Proof.Gen.KernelIdeal.Frame
import proofs.«404754_j41094247088649_2_alg».proof.Proof.Spec
import proofs.«404754_j41094247088649_2_alg».proof.Proof.KDefs
import proofs.«404754_j41094247088649_2_alg».proof.Proof.KStages
import Idealize.ShloMosaic.Lib.StableHlo.Run

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## At the first region's entry: the index and normalisation stages of the arguments -/

set_option maxHeartbeats 4000000 in
theorem e_v1 (c : Dev nD) : (W1 m ρ c (Proc.devRef .tc main_v1)) = Cert.Spec.src (m ((c : Thread nD τ).loc main_arg1)) := by
  show StableHlo.after hostOps0 (W0 m ρ c) (Proc.devRef .tc main_v1) = _
  after_results_simp
  rfl

set_option maxHeartbeats 4000000 in
theorem e_v3 (c : Dev nD) : (W1 m ρ c (Proc.devRef .tc main_v3)) = Cert.Spec.dst (m ((c : Thread nD τ).loc main_arg1)) := by
  show StableHlo.after hostOps0 (W0 m ρ c) (Proc.devRef .tc main_v3) = _
  after_results_simp
  rfl

set_option maxHeartbeats 4000000 in
theorem e_v11 (c : Dev nD) : (W1 m ρ c (Proc.devRef .tc main_v11)) = shapeCast S100000x1 (mulf (Cert.Spec.dis (m ((c : Thread nD τ).loc main_arg1)) (m ((c : Thread nD τ).loc main_arg2))) (Cert.Spec.dis (m ((c : Thread nD τ).loc main_arg1)) (m ((c : Thread nD τ).loc main_arg2)))) shapeCasts_S100000_S100000x1 := by
  show StableHlo.after hostOps0 (W0 m ρ c) (Proc.devRef .tc main_v11) = _
  after_results_simp
  rfl

set_option maxHeartbeats 4000000 in
theorem e_v28 (c : Dev nD) : (W1 m ρ c (Proc.devRef .tc main_v28)) = shapeCast S800000x1 (Cert.Spec.norm (m ((c : Thread nD τ).loc main_arg1)) (m ((c : Thread nD τ).loc main_arg2))) shapeCasts_S800000_S800000x1 := by
  show StableHlo.after hostOps0 (W0 m ρ c) (Proc.devRef .tc main_v28) = _
  after_results_simp
  rfl

theorem e_arg0 (c : Dev nD) : (W1 m ρ c (Proc.devRef .tc main_arg0)) = (m ((c : Thread nD τ).loc main_arg0)) := by
  show StableHlo.after hostOps0 (W0 m ρ c) (Proc.devRef .tc main_arg0) = _
  after_results_simp

theorem e_arg3 (c : Dev nD) : (W1 m ρ c (Proc.devRef .tc main_arg3)) = (m ((c : Thread nD τ).loc main_arg3)) := by
  show StableHlo.after hostOps0 (W0 m ρ c) (Proc.devRef .tc main_arg3) = _
  after_results_simp

theorem e_arg4 (c : Dev nD) : (W1 m ρ c (Proc.devRef .tc main_arg4)) = (m ((c : Thread nD τ).loc main_arg4)) := by
  show StableHlo.after hostOps0 (W0 m ρ c) (Proc.devRef .tc main_arg4) = _
  after_results_simp

theorem e_arg5 (c : Dev nD) : (W1 m ρ c (Proc.devRef .tc main_arg5)) = (m ((c : Thread nD τ).loc main_arg5)) := by
  show StableHlo.after hostOps0 (W0 m ρ c) (Proc.devRef .tc main_arg5) = _
  after_results_simp

theorem e_arg6 (c : Dev nD) : (W1 m ρ c (Proc.devRef .tc main_arg6)) = (m ((c : Thread nD τ).loc main_arg6)) := by
  show StableHlo.after hostOps0 (W0 m ρ c) (Proc.devRef .tc main_arg6) = _
  after_results_simp

theorem e_arg7 (c : Dev nD) : (W1 m ρ c (Proc.devRef .tc main_arg7)) = (m ((c : Thread nD τ).loc main_arg7)) := by
  show StableHlo.after hostOps0 (W0 m ρ c) (Proc.devRef .tc main_arg7) = _
  after_results_simp

/-! ## Across the first region: every buffer that is not one of its arrays is kept -/
theorem x0_v1 (c : Dev nD) : (W2 m ρ c (Proc.devRef .tc main_v1)) = (W1 m ρ c (Proc.devRef .tc main_v1)) := W2_of_ne m ρ c main_v1 (by decide)
theorem x0_v3 (c : Dev nD) : (W2 m ρ c (Proc.devRef .tc main_v3)) = (W1 m ρ c (Proc.devRef .tc main_v3)) := W2_of_ne m ρ c main_v3 (by decide)
theorem x0_v11 (c : Dev nD) : (W2 m ρ c (Proc.devRef .tc main_v11)) = (W1 m ρ c (Proc.devRef .tc main_v11)) := W2_of_ne m ρ c main_v11 (by decide)
theorem x0_v28 (c : Dev nD) : (W2 m ρ c (Proc.devRef .tc main_v28)) = (W1 m ρ c (Proc.devRef .tc main_v28)) := W2_of_ne m ρ c main_v28 (by decide)
theorem x0_arg3 (c : Dev nD) : (W2 m ρ c (Proc.devRef .tc main_arg3)) = (W1 m ρ c (Proc.devRef .tc main_arg3)) := W2_of_ne m ρ c main_arg3 (by decide)
theorem x0_arg5 (c : Dev nD) : (W2 m ρ c (Proc.devRef .tc main_arg5)) = (W1 m ρ c (Proc.devRef .tc main_arg5)) := W2_of_ne m ρ c main_arg5 (by decide)
theorem x0_arg6 (c : Dev nD) : (W2 m ρ c (Proc.devRef .tc main_arg6)) = (W1 m ρ c (Proc.devRef .tc main_arg6)) := W2_of_ne m ρ c main_arg6 (by decide)
theorem x0_arg7 (c : Dev nD) : (W2 m ρ c (Proc.devRef .tc main_arg7)) = (W1 m ρ c (Proc.devRef .tc main_arg7)) := W2_of_ne m ρ c main_arg7 (by decide)

/-! ## At the second region's entry -/

set_option maxHeartbeats 4000000 in
/-- The aggregated features: the rows taken at the sources (with fill), weighted, summed into the destinations. -/
theorem f_v35 (c : Dev nD) : (W4 m ρ c (Proc.devRef .tc main_v35))
    = Cert.KSide.aggOf (W2 m ρ c (Proc.devRef .tc main_v3)) (Cert.KSide.takeRows (W2 m ρ c (Proc.devRef .tc main_v29)) (W2 m ρ c (Proc.devRef .tc main_v1))) (W2 m ρ c (Proc.devRef .tc main_v28)) := by
  show StableHlo.after hostOps1_1 (StableHlo.after hostOps1 (W2 m ρ c)) (Proc.devRef .tc main_v35) = _
  after_results_simp
  simp only [TRef.ofBuf, TRef.toBuf, cast_eq]
  rfl

set_option maxHeartbeats 4000000 in
/-- The bias as one row. -/
theorem f_v36 (c : Dev nD) : (W4 m ρ c (Proc.devRef .tc main_v36)) = shapeCast S1x128 (W2 m ρ c (Proc.devRef .tc main_arg5)) shapeCasts_S128_S1x128 := by
  show StableHlo.after hostOps1_1 (StableHlo.after hostOps1 (W2 m ρ c)) (Proc.devRef .tc main_v36) = _
  after_results_simp
  rfl

set_option maxHeartbeats 4000000 in
theorem f_v29 (c : Dev nD) : (W4 m ρ c (Proc.devRef .tc main_v29)) = (W2 m ρ c (Proc.devRef .tc main_v29)) := by
  show StableHlo.after hostOps1_1 (StableHlo.after hostOps1 (W2 m ρ c)) (Proc.devRef .tc main_v29) = _
  after_results_simp

set_option maxHeartbeats 4000000 in
theorem f_v11 (c : Dev nD) : (W4 m ρ c (Proc.devRef .tc main_v11)) = (W2 m ρ c (Proc.devRef .tc main_v11)) := by
  show StableHlo.after hostOps1_1 (StableHlo.after hostOps1 (W2 m ρ c)) (Proc.devRef .tc main_v11) = _
  after_results_simp

set_option maxHeartbeats 4000000 in
theorem f_v1 (c : Dev nD) : (W4 m ρ c (Proc.devRef .tc main_v1)) = (W2 m ρ c (Proc.devRef .tc main_v1)) := by
  show StableHlo.after hostOps1_1 (StableHlo.after hostOps1 (W2 m ρ c)) (Proc.devRef .tc main_v1) = _
  after_results_simp

set_option maxHeartbeats 4000000 in
theorem f_v3 (c : Dev nD) : (W4 m ρ c (Proc.devRef .tc main_v3)) = (W2 m ρ c (Proc.devRef .tc main_v3)) := by
  show StableHlo.after hostOps1_1 (StableHlo.after hostOps1 (W2 m ρ c)) (Proc.devRef .tc main_v3) = _
  after_results_simp

set_option maxHeartbeats 4000000 in
theorem f_v28 (c : Dev nD) : (W4 m ρ c (Proc.devRef .tc main_v28)) = (W2 m ρ c (Proc.devRef .tc main_v28)) := by
  show StableHlo.after hostOps1_1 (StableHlo.after hostOps1 (W2 m ρ c)) (Proc.devRef .tc main_v28) = _
  after_results_simp

set_option maxHeartbeats 4000000 in
theorem f_arg3 (c : Dev nD) : (W4 m ρ c (Proc.devRef .tc main_arg3)) = (W2 m ρ c (Proc.devRef .tc main_arg3)) := by
  show StableHlo.after hostOps1_1 (StableHlo.after hostOps1 (W2 m ρ c)) (Proc.devRef .tc main_arg3) = _
  after_results_simp

set_option maxHeartbeats 4000000 in
theorem f_arg6 (c : Dev nD) : (W4 m ρ c (Proc.devRef .tc main_arg6)) = (W2 m ρ c (Proc.devRef .tc main_arg6)) := by
  show StableHlo.after hostOps1_1 (StableHlo.after hostOps1 (W2 m ρ c)) (Proc.devRef .tc main_arg6) = _
  after_results_simp

set_option maxHeartbeats 4000000 in
theorem f_arg7 (c : Dev nD) : (W4 m ρ c (Proc.devRef .tc main_arg7)) = (W2 m ρ c (Proc.devRef .tc main_arg7)) := by
  show StableHlo.after hostOps1_1 (StableHlo.after hostOps1 (W2 m ρ c)) (Proc.devRef .tc main_arg7) = _
  after_results_simp

/-! ## Across the second region -/
theorem x1_v1 (c : Dev nD) : (W5 m ρ c (Proc.devRef .tc main_v1)) = (W4 m ρ c (Proc.devRef .tc main_v1)) := W5_of_ne m ρ c main_v1 (by decide)
theorem x1_v3 (c : Dev nD) : (W5 m ρ c (Proc.devRef .tc main_v3)) = (W4 m ρ c (Proc.devRef .tc main_v3)) := W5_of_ne m ρ c main_v3 (by decide)
theorem x1_v28 (c : Dev nD) : (W5 m ρ c (Proc.devRef .tc main_v28)) = (W4 m ρ c (Proc.devRef .tc main_v28)) := W5_of_ne m ρ c main_v28 (by decide)
theorem x1_arg3 (c : Dev nD) : (W5 m ρ c (Proc.devRef .tc main_arg3)) = (W4 m ρ c (Proc.devRef .tc main_arg3)) := W5_of_ne m ρ c main_arg3 (by decide)
theorem x1_arg7 (c : Dev nD) : (W5 m ρ c (Proc.devRef .tc main_arg7)) = (W4 m ρ c (Proc.devRef .tc main_arg7)) := W5_of_ne m ρ c main_arg7 (by decide)
/-- An input array of the region is kept. -/
theorem x1_v11 (c : Dev nD) : (W5 m ρ c (Proc.devRef .tc main_v11)) = (W4 m ρ c (Proc.devRef .tc main_v11)) :=
  (W5_arr m ρ c 2).trans (((dat1 (V4 m ρ) c).arrAt_in 2 rfl _).trans (A_eq1 (V4 m ρ) c 2))

/-! ## At the return -/

set_option maxHeartbeats 4000000 in
/-- The result: the mean over graphs of the second layer, whose gathered entries are taken (with fill) from the
    flattened second-layer features and weighted by the flattened weights column. -/
theorem g_v62 (c : Dev nD) : (W8 m ρ c (Proc.devRef .tc main_v62))
    = Cert.Spec.pool (W5 m ρ c (Proc.devRef .tc main_arg3))
        (Cert.KSide.out2Of (W5 m ρ c (Proc.devRef .tc main_v3))
          (shapeCast S800000x1 (mulf (Cert.KSide.takeEntries (shapeCast S100000 (W5 m ρ c (Proc.devRef .tc main_v37)) shapeCasts_S100000x1_S100000) (W5 m ρ c (Proc.devRef .tc main_v1)))
              (shapeCast S800000 (W5 m ρ c (Proc.devRef .tc main_v28)) shapeCasts_S800000x1_S800000)) shapeCasts_S800000_S800000x1)
          (W5 m ρ c (Proc.devRef .tc main_v37)) (W5 m ρ c (Proc.devRef .tc main_v11)) (W5 m ρ c (Proc.devRef .tc main_arg7))) := by
  show StableHlo.after hostOps2_2 (StableHlo.after hostOps2_1 (StableHlo.after hostOps2 (W5 m ρ c))) (Proc.devRef .tc main_v62) = _
  after_results_simp
  simp only [TRef.ofBuf, TRef.toBuf, cast_eq]
  rfl

end Cert.KernelIdeal.KV

end
-- ==== Proof.Region0.lean ====
import proofs.«404754_j41094247088649_2_alg».proof.Proof.Gen.KernelIdeal.Frame
import proofs.«404754_j41094247088649_2_alg».proof.Proof.Gen.ReferenceIdeal.Read
import proofs.«404754_j41094247088649_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg0

open Idealize.ShloMosaic Idealize.ShloMosaic.TcCoe Idealize.SL.Sem Cert.KernelIdeal Cert.KernelIdeal.Gen
open Idealize.ShloMosaic.Pipeline (Dat Cfg Window)

/-- The zero offset of a whole-block access. -/
theorem hz : (![0, 0] : Fin 2 → Nat) = fun _ => 0 := funext fun a => by fin_cases a <;> rfl

/-- The index maps over the grid: point `t` takes row block `t` of X and of the product, and all of W1. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-! ## The block product at an index -/

theorem lhs_blk_0 (i : S5000x128.Idx) (q : dot_S5000x200_S200x128_S5000x128_1_0_0_1_n_n.contr.Idx) :
    (dot_S5000x200_S200x128_S5000x128_1_0_0_1_n_n.lhsIdx i q 0).val = (i 0).val := by
  unfold DotDims.lhsIdx
  rw [dif_neg (show ¬(0 : Fin S5000x200.rank) ∈ dot_S5000x200_S200x128_S5000x128_1_0_0_1_n_n.lhsBatch by decide), dif_pos (show (0 : Fin S5000x200.rank) ∈ dot_S5000x200_S200x128_S5000x128_1_0_0_1_n_n.lhsNonContracting by decide)]
  rfl
theorem lhs_blk_1 (i : S5000x128.Idx) (q : dot_S5000x200_S200x128_S5000x128_1_0_0_1_n_n.contr.Idx) :
    (dot_S5000x200_S200x128_S5000x128_1_0_0_1_n_n.lhsIdx i q 1).val = (q ⟨0, by decide⟩).val :=
  dot_S5000x200_S200x128_S5000x128_1_0_0_1_n_n.lhsIdx_val_of_single rfl i q
theorem rhs_blk_0 (i : S5000x128.Idx) (q : dot_S5000x200_S200x128_S5000x128_1_0_0_1_n_n.contr.Idx) :
    (dot_S5000x200_S200x128_S5000x128_1_0_0_1_n_n.rhsIdx i q 0).val = (q ⟨0, by decide⟩).val :=
  dot_S5000x200_S200x128_S5000x128_1_0_0_1_n_n.rhsIdx_val_of_single rfl i q
theorem rhs_blk_1 (i : S5000x128.Idx) (q : dot_S5000x200_S200x128_S5000x128_1_0_0_1_n_n.contr.Idx) :
    (dot_S5000x200_S200x128_S5000x128_1_0_0_1_n_n.rhsIdx i q 1).val = (i 1).val := by
  unfold DotDims.rhsIdx
  rw [dif_neg (show ¬(1 : Fin S200x128.rank) ∈ dot_S5000x200_S200x128_S5000x128_1_0_0_1_n_n.rhsBatch by decide), dif_pos (show (1 : Fin S200x128.rank) ∈ dot_S5000x200_S200x128_S5000x128_1_0_0_1_n_n.rhsNonContracting by decide)]
  rfl

/-- Row `j 0` of the X block, column `k`. -/
abbrev lidxB (j : S5000x128.Idx) (k : Fin 200) : S5000x200.Idx := fun a => match a with
  | ⟨0, _⟩ => ⟨(j 0).val, (j 0).isLt⟩
  | ⟨1, _⟩ => ⟨k.val, k.isLt⟩
/-- Row `k` of W1, column `j 1`. -/
abbrev ridxB (j : S5000x128.Idx) (k : Fin 200) : S200x128.Idx := fun a => match a with
  | ⟨0, _⟩ => ⟨k.val, k.isLt⟩
  | ⟨1, _⟩ => ⟨(j 1).val, (j 1).isLt⟩

/-- The body's payload at an index: the narrowing of the operands is the identity on the ideal values, and the
    product into a zero accumulator is the sum over the 200 columns of the X block's row times W1's column. -/
theorem pay_apply (x0 : Vec Ideal S5000x200 .f32) (x1 : Vec Ideal S200x128 .f32) (j : S5000x128.Idx) :
    k0_pay1 (F := Ideal) x0 x1 j = ∑ k : Fin 200, x0 (lidxB j k) * x1 (ridxB j k) := by
  unfold k0_pay1
  simp only [matmul]
  rw [Ideal.matmul_constant_zero_apply, ← Equiv.sum_comp (ValueIdx.contrEquiv1 dot_S5000x200_S200x128_S5000x128_1_0_0_1_n_n 200 rfl rfl).symm]
  refine Finset.sum_congr rfl fun k _ => ?_
  have hk := ValueIdx.contrEquiv1_symm_val dot_S5000x200_S200x128_S5000x128_1_0_0_1_n_n 200 rfl rfl k
  have el : dot_S5000x200_S200x128_S5000x128_1_0_0_1_n_n.lhsIdx j ((ValueIdx.contrEquiv1 dot_S5000x200_S200x128_S5000x128_1_0_0_1_n_n 200 rfl rfl).symm k) = lidxB j k := funext fun a => Fin.ext (by
    match a with
    | ⟨0, _⟩ => exact lhs_blk_0 _ _
    | ⟨1, _⟩ => exact (lhs_blk_1 _ _).trans hk)
  have er : dot_S5000x200_S200x128_S5000x128_1_0_0_1_n_n.rhsIdx j ((ValueIdx.contrEquiv1 dot_S5000x200_S200x128_S5000x128_1_0_0_1_n_n 200 rfl rfl).symm k) = ridxB j k := funext fun a => Fin.ext (by
    match a with
    | ⟨0, _⟩ => exact (rhs_blk_0 _ _).trans hk
    | ⟨1, _⟩ => exact rhs_blk_1 _ _)
  rw [ValueIdx.truncf_apply, ValueIdx.truncf_apply, el, er]

/-! ## What a point writes back -/

/-- The product at an index of the whole array. -/
theorem xw_apply (X : Vec Ideal S100000x200 .f32) (W : Vec Ideal S200x128 .f32) (i : S100000x128.Idx) :
    Cert.Spec.xw (F := Ideal) X W i = ∑ k : Fin 200, X (Cert.ReferenceIdeal.Read.lidx_main_v4 i k) * W (Cert.ReferenceIdeal.Read.ridx_main_v4 i k) :=
  Cert.ReferenceIdeal.Read.val_main_v4_apply X W i

variable (V : (c : Dev nD) → (b : Ref sig .tc) → Buf (Elt Ideal) ((c : Thread nD τ).loc b))

/-- What point `t` writes back is block `t` of the product of the arrays the region finds. -/
theorem flushed_eq (c : Dev nD) (t : Fin cfg0.N) :
    (dat0 (F := Ideal) V c).flushed 2 t = ((cfg0.win 2).blk t).view.read (Elt Ideal) (Cert.Spec.xw (F := Ideal) (V c main_arg0) (V c main_arg4)) := by
  show (cfg0.win 2).cut (grid0.coords t) ((dat0 V c).after 2 t) = _
  rw [after0_2]
  unfold out0_2
  rw [View.canon_unit_zero hz]
  simp only [View.ld_unit_zero (S := S5000x200) hz, View.ld_unit_zero (S := S200x128) hz]
  obtain ⟨e0, e1, e2, e3, e4, e5⟩ := idx_facts t
  funext j
  show k0_pay1 (F := Ideal) (iblk0 V c 0 t) (iblk0 V c 1 t) j = Cert.Spec.xw (F := Ideal) (V c main_arg0) (V c main_arg4) (((cfg0.win 2).blk t).view.emb j)
  refine (pay_apply (iblk0 V c 0 t) (iblk0 V c 1 t) j).trans ?_
  refine Eq.trans ?_ (xw_apply (V c main_arg0) (V c main_arg4) _).symm
  refine Finset.sum_congr rfl fun k _ => ?_
  have h0 : iblk0 V c 0 t (lidxB j k) = V c main_arg0 (Cert.ReferenceIdeal.Read.lidx_main_v4 (((cfg0.win 2).blk t).view.emb j) k) := by
    show V c main_arg0 (((cfg0.win 0).blk t).view.emb (lidxB j k)) = _
    congr 1; funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 200 + 1 * k.val = k.val; omega
  have h1 : iblk0 V c 1 t (ridxB j k) = V c main_arg4 (Cert.ReferenceIdeal.Read.ridx_main_v4 (((cfg0.win 2).blk t).view.emb j) k) := by
    show V c main_arg4 (((cfg0.win 1).blk t).view.emb (ridxB j k)) = _
    congr 1; funext a; apply Fin.ext
    match a with
    | ⟨0, _⟩ => show win0_1.index t (0 : Fin 2) * 200 + 1 * k.val = k.val; omega
    | ⟨1, _⟩ => show win0_1.index t (1 : Fin 2) * 128 + 1 * (j 1).val = win0_2.index t (1 : Fin 2) * 128 + 1 * (j 1).val; omega
  rw [h0, h1]

/-! ## The blocks cover the array -/

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Row `r` of the array is in the block of point `r / 5000`, and every point writes its block back. -/
theorem cover (i : S100000x128.Idx) :
    ∃ t : Fin cfg0.N, (cfg0.win 2).flush t = true ∧ i ∈ ((cfg0.win 2).blk t).view.set := by
  have hN : grid0.N = 20 := N_0
  have hi0 : (i 0).val < 100000 := (i 0).isLt
  have hi1 : (i 1).val < 128 := (i 1).isLt
  have ht : (i 0).val / 5000 < grid0.N := by omega
  obtain ⟨t, htv⟩ : ∃ t : Fin cfg0.N, t.val = (i 0).val / 5000 := ⟨⟨_, ht⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the first region the feature array holds X·W1, X and W1 the arrays the region finds. -/
theorem arr0 (c : Dev nD) :
    (dat0 (F := Ideal) V c).arrAt 2 cfg0.N = Cert.Spec.xw (F := Ideal) (V c main_arg0) (V c main_arg4) := by
  exact (dat0 (F := Ideal) V c).arrAt_eq_of_cover 2 _ (fun t _ => flushed_eq V c t) cover

end Cert.KernelIdeal.Reg0

end
-- ==== Proof.Region1.lean ====
import proofs.«404754_j41094247088649_2_alg».proof.Proof.Gen.KernelIdeal.Frame
import proofs.«404754_j41094247088649_2_alg».proof.Proof.Gen.ReferenceIdeal.Read
import proofs.«404754_j41094247088649_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
  The second region's output array, read whole. Over its 20 grid points the region computes, 5000 rows at a time,
  relu(agg + z·d + b)·W2: at row r the sum over the 128 lanes k of max(agg r k + z r k · d r + b k, 0) · W2 k.
  Here: the block's product and the whole array's product as that sum at a row; the hidden layer and the body's
  value at a row and lane; each window's block as rows of its array; what a point writes back; the blocks cover
  the array.
-/

noncomputable section

namespace Cert.KernelIdeal.Reg1

open Idealize.ShloMosaic Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

section Blocks

open Idealize.ShloMosaic.ValueIdx
open scoped BigOperators

/-! ## The two matrix products at an index -/

theorem lhs_blk_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem lhs_blk_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
theorem rhs_blk_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
theorem rhs_blk_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- The block's product into a zero accumulator, at row `p`: the sum over the 128 lanes. -/
theorem matmul_blk_apply (h : FVec Ideal S5000x128 .bf16) (w : FVec Ideal S128x1 .bf16) (p : Fin 5000) (q : Fin 1) :
    matmul dot_S5000x128_S128x1_S5000x1_1_0_0_1_n_n none h w (constant (F := Ideal) S5000x1 .f32 0x00000000#32) (ix2 p q)
      = ∑ k : Fin 128, h (ix2 p k) * w (ix2 k q) := by
  simp only [matmul]
  rw [Ideal.matmul_constant_zero_apply, ← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 p q) ((contrEquiv1 dot_S5000x128_S128x1_S5000x1_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S5000x128_S128x1_S5000x1_1_0_0_1_n_n.rhsIdx (ix2 p q) ((contrEquiv1 dot_S5000x128_S128x1_S5000x1_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]

/-- The whole array's product, at row `r`: the same sum. -/
theorem hw_apply (h : FVec Ideal S100000x128 .f32) (W : FVec Ideal S128x1 .f32) (r : Fin 100000) (q : Fin 1) :
    Cert.Spec.hw (F := Ideal) h W (ix2 r q) = ∑ k : Fin 128, h (ix2 r k) * W (ix2 k q) := by
  unfold Cert.Spec.hw
  simp only [Host.dotGeneral]
  rw [Ideal.dotGeneral_apply, ← Equiv.sum_comp (contrEquiv1 Cert.ReferenceIdeal.dot_S100000x128_S128x1_S100000x1_1_0_0_1_n_n 128 rfl rfl).symm]
  refine Finset.sum_congr rfl fun k _ => ?_
  have hk := contrEquiv1_symm_val Cert.ReferenceIdeal.dot_S100000x128_S128x1_S100000x1_1_0_0_1_n_n 128 rfl rfl k
  have el : Cert.ReferenceIdeal.dot_S100000x128_S128x1_S100000x1_1_0_0_1_n_n.lhsIdx (ix2 r q) ((contrEquiv1 Cert.ReferenceIdeal.dot_S100000x128_S128x1_S100000x1_1_0_0_1_n_n 128 rfl rfl).symm k) = ix2 r k := funext fun a => Fin.ext (by
    match a with
    | ⟨0, _⟩ => exact Cert.ReferenceIdeal.Read.lhs_main_v49_0 _ _
    | ⟨1, _⟩ => exact (Cert.ReferenceIdeal.Read.lhs_main_v49_1 _ _).trans hk)
  have er : Cert.ReferenceIdeal.dot_S100000x128_S128x1_S100000x1_1_0_0_1_n_n.rhsIdx (ix2 r q) ((contrEquiv1 Cert.ReferenceIdeal.dot_S100000x128_S128x1_S100000x1_1_0_0_1_n_n 128 rfl rfl).symm k) = ix2 k q := funext fun a => Fin.ext (by
    match a with
    | ⟨0, _⟩ => exact (Cert.ReferenceIdeal.Read.rhs_main_v49_0 _ _).trans hk
    | ⟨1, _⟩ => exact Cert.ReferenceIdeal.Read.rhs_main_v49_1 _ _)
  rw [el, er]

/-! ## The hidden layer at an index -/

/-- relu(a + z·d + b) of the whole arrays at row `r`, lane `k`. -/
theorem hiddenOf_apply (a z : FVec Ideal S100000x128 .f32) (d : FVec Ideal S100000x1 .f32) (b : FVec Ideal S1x128 .f32)
    (r : Fin 100000) (k : Fin 128) :
    Cert.Spec.hiddenOf (F := Ideal) a z d b (ix2 r k)
      = max (a (ix2 r k) + z (ix2 r k) * d (ix2 r (0 : Fin 1)) + b (ix2 (0 : Fin 1) k)) (Ideal.ofBits .f32 0x00000000#32) := by
  unfold Cert.Spec.hiddenOf
  rw [maximumf_apply, addf_apply, addf_apply, mulf_apply,
    broadcastInDim_apply _ Cert.ReferenceIdeal.Gen.bcast_S100000x1_S100000x128_0_1 d (ix2 r k) (ix2 r (0 : Fin 1)) (fun a => match a with
      | ⟨0, _⟩ => by show r.val = if (100000 : Nat) = 1 then 0 else r.val; rw [if_neg (by decide)]
      | ⟨1, _⟩ => by show 0 = if (1 : Nat) = 1 then 0 else k.val; rw [if_pos rfl]),
    broadcastInDim_apply _ Cert.ReferenceIdeal.Gen.bcast_S1x128_S100000x128_0_1 b (ix2 r k) (ix2 (0 : Fin 1) k) (fun a => match a with
      | ⟨0, _⟩ => by show 0 = if (1 : Nat) = 1 then 0 else r.val; rw [if_pos rfl]
      | ⟨1, _⟩ => by show k.val = if (128 : Nat) = 1 then 0 else k.val; rw [if_neg (by decide)]),
    broadcastInDim_apply _ Cert.ReferenceIdeal.Gen.bcast_S_S100000x128 (constant (F := Ideal) S_ .f32 0x00000000#32) (ix2 r k) ix0 (fun a => a.elim0)]
  rfl

/-- The body's value at row `p` of its block: the product of relu(x0 + x1·x2 + x3) by x4. -/
theorem pay_apply (x0 x1 : Vec Ideal S5000x128 .f32) (x2 : Vec Ideal S5000x1 .f32) (x3 : Vec Ideal S1x128 .f32)
    (x4 : Vec Ideal S128x1 .f32) (p : Fin 5000) (q : Fin 1) :
    k1_pay1 (F := Ideal) x0 x1 x2 x3 x4 (ix2 p q)
      = ∑ k : Fin 128, max (x0 (ix2 p k) + x1 (ix2 p k) * x2 (ix2 p (0 : Fin 1)) + x3 (ix2 (0 : Fin 1) k)) (Ideal.ofBits .f32 0x00000000#32)
          * x4 (ix2 k q) := by
  unfold k1_pay1
  simp only [shapeCast_self]
  rw [matmul_blk_apply]
  refine Finset.sum_congr rfl fun k _ => ?_
  rw [truncf_apply, truncf_apply, maximumf_apply, addf_apply, addf_apply, mulf_apply, broadcast_apply,
    broadcastTo_apply x2 broadcasts_S5000x1_S5000x128 (ix2 p k) (ix2 p (0 : Fin 1)) (fun a => match a with
      | ⟨0, _⟩ => by show p.val = if (5000 : Nat) = 1 then 0 else p.val; rw [if_neg (by decide)]
      | ⟨1, _⟩ => by show 0 = if (1 : Nat) = 1 then 0 else k.val; rw [if_pos rfl]),
    broadcastTo_apply x3 broadcasts_S1x128_S5000x128 (ix2 p k) (ix2 (0 : Fin 1) k) (fun a => match a with
      | ⟨0, _⟩ => by show 0 = if (1 : Nat) = 1 then 0 else p.val; rw [if_pos rfl]
      | ⟨1, _⟩ => by show k.val = if (128 : Nat) = 1 then 0 else k.val; rw [if_neg (by decide)])]
  rfl

/-! ## From the blocks to the array -/

theorem hz : (![0, 0] : Fin 2 → Nat) = fun _ => 0 := funext fun a => by fin_cases a <;> rfl

/-- The index maps over the grid: the row-blocked windows sit at block (t, 0), the whole-array ones at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block `t` of the first window is rows 5000 t … 5000 t + 4999 of its array. -/
theorem blk0_apply (c : Dev nD) (t : Fin cfg1.N) (x : S5000x128.Idx) (k : S100000x128.Idx)
    (hk0 : (k 0).val = 5000 * t.val + (x 0).val) (hk1 : (k 1).val = (x 1).val) :
    (iblk1 (F := Ideal) V c 0 t : Vec Ideal S5000x128 .f32) x = (V c main_v35 : S100000x128.Idx → Elt Ideal .f32) k := by
  obtain ⟨e00, e01, e10, e11, e20, e21, e30, e31, e40, e41, e50, e51⟩ := idx_facts t
  unfold iblk1
  rw [View.read_apply]
  show V c main_v35 _ = V c main_v35 _
  congr 1
  funext a
  apply Fin.ext
  match a with
  | ⟨0, _⟩ => show win1_0.index t (0 : Fin 2) * 5000 + 1 * (x 0).val = (k 0).val; omega
  | ⟨1, _⟩ => show win1_0.index t (1 : Fin 2) * 128 + 1 * (x 1).val = (k 1).val; omega

/-- The same of the second window. -/
theorem blk1_apply (c : Dev nD) (t : Fin cfg1.N) (x : S5000x128.Idx) (k : S100000x128.Idx)
    (hk0 : (k 0).val = 5000 * t.val + (x 0).val) (hk1 : (k 1).val = (x 1).val) :
    (iblk1 (F := Ideal) V c 1 t : Vec Ideal S5000x128 .f32) x = (V c main_v29 : S100000x128.Idx → Elt Ideal .f32) k := by
  obtain ⟨e00, e01, e10, e11, e20, e21, e30, e31, e40, e41, e50, e51⟩ := idx_facts t
  unfold iblk1
  rw [View.read_apply]
  show V c main_v29 _ = V c main_v29 _
  congr 1
  funext a
  apply Fin.ext
  match a with
  | ⟨0, _⟩ => show win1_1.index t (0 : Fin 2) * 5000 + 1 * (x 0).val = (k 0).val; omega
  | ⟨1, _⟩ => show win1_1.index t (1 : Fin 2) * 128 + 1 * (x 1).val = (k 1).val; omega

/-- The same of the column window. -/
theorem blk2_apply (c : Dev nD) (t : Fin cfg1.N) (x : S5000x1.Idx) (k : S100000x1.Idx)
    (hk0 : (k 0).val = 5000 * t.val + (x 0).val) (hk1 : (k 1).val = (x 1).val) :
    (iblk1 (F := Ideal) V c 2 t : Vec Ideal S5000x1 .f32) x = (V c main_v11 : S100000x1.Idx → Elt Ideal .f32) k := by
  obtain ⟨e00, e01, e10, e11, e20, e21, e30, e31, e40, e41, e50, e51⟩ := idx_facts t
  unfold iblk1
  rw [View.read_apply]
  show V c main_v11 _ = V c main_v11 _
  congr 1
  funext a
  apply Fin.ext
  match a with
  | ⟨0, _⟩ => show win1_2.index t (0 : Fin 2) * 5000 + 1 * (x 0).val = (k 0).val; omega
  | ⟨1, _⟩ => show win1_2.index t (1 : Fin 2) * 1 + 1 * (x 1).val = (k 1).val; omega

/-- The row window's block is its whole array. -/
theorem blk3_apply (c : Dev nD) (t : Fin cfg1.N) (x : S1x128.Idx) (k : S1x128.Idx)
    (hk0 : (k 0).val = (x 0).val) (hk1 : (k 1).val = (x 1).val) :
    (iblk1 (F := Ideal) V c 3 t : Vec Ideal S1x128 .f32) x = (V c main_v36 : S1x128.Idx → Elt Ideal .f32) k := by
  obtain ⟨e00, e01, e10, e11, e20, e21, e30, e31, e40, e41, e50, e51⟩ := idx_facts t
  unfold iblk1
  rw [View.read_apply]
  show V c main_v36 _ = V c main_v36 _
  congr 1
  funext a
  apply Fin.ext
  match a with
  | ⟨0, _⟩ => show win1_3.index t (0 : Fin 2) * 1 + 1 * (x 0).val = (k 0).val; omega
  | ⟨1, _⟩ => show win1_3.index t (1 : Fin 2) * 128 + 1 * (x 1).val = (k 1).val; omega

/-- The weight window's block is its whole array. -/
theorem blk4_apply (c : Dev nD) (t : Fin cfg1.N) (x : S128x1.Idx) (k : S128x1.Idx)
    (hk0 : (k 0).val = (x 0).val) (hk1 : (k 1).val = (x 1).val) :
    (iblk1 (F := Ideal) V c 4 t : Vec Ideal S128x1 .f32) x = (V c main_arg6 : S128x1.Idx → Elt Ideal .f32) k := by
  obtain ⟨e00, e01, e10, e11, e20, e21, e30, e31, e40, e41, e50, e51⟩ := idx_facts t
  unfold iblk1
  rw [View.read_apply]
  show V c main_arg6 _ = V c main_arg6 _
  congr 1
  funext a
  apply Fin.ext
  match a with
  | ⟨0, _⟩ => show win1_4.index t (0 : Fin 2) * 128 + 1 * (x 0).val = (k 0).val; omega
  | ⟨1, _⟩ => show win1_4.index t (1 : Fin 2) * 1 + 1 * (x 1).val = (k 1).val; omega

/-- The body's value at row `p` of block `t` is the network's at row 5000 t + p of the arrays. -/
theorem point_eq (c : Dev nD) (t : Fin cfg1.N) (p : Fin 5000) (q : Fin 1) (h : 5000 * t.val + p.val < 100000) :
    k1_pay1 (F := Ideal) (iblk1 V c 0 t) (iblk1 V c 1 t) (iblk1 V c 2 t) (iblk1 V c 3 t) (iblk1 V c 4 t) (ix2 p q)
      = (Cert.Spec.hw (F := Ideal) (Cert.Spec.hiddenOf (V c main_v35) (V c main_v29) (V c main_v11) (V c main_v36)) (V c main_arg6)) (ix2 (⟨5000 * t.val + p.val, h⟩ : Fin 100000) q) := by
  refine (pay_apply (iblk1 V c 0 t) (iblk1 V c 1 t) (iblk1 V c 2 t) (iblk1 V c 3 t) (iblk1 V c 4 t) p q).trans ?_
  refine Eq.trans ?_ (hw_apply _ _ (⟨5000 * t.val + p.val, h⟩ : Fin 100000) q).symm
  refine Finset.sum_congr rfl fun k _ => ?_
  rw [hiddenOf_apply,
    blk0_apply V c t (ix2 p k) (ix2 (⟨5000 * t.val + p.val, h⟩ : Fin 100000) k) rfl rfl,
    blk1_apply V c t (ix2 p k) (ix2 (⟨5000 * t.val + p.val, h⟩ : Fin 100000) k) rfl rfl,
    blk2_apply V c t (ix2 p (0 : Fin 1)) (ix2 (⟨5000 * t.val + p.val, h⟩ : Fin 100000) (0 : Fin 1)) rfl rfl,
    blk3_apply V c t (ix2 (0 : Fin 1) k) (ix2 (0 : Fin 1) k) rfl rfl,
    blk4_apply V c t (ix2 k q) (ix2 k q) rfl rfl]

/-- What point `t` writes back is block `t` of the network's value on the arrays the region finds. -/
theorem flushed_eq (c : Dev nD) (t : Fin cfg1.N) :
    (dat1 (F := Ideal) V c).flushed 5 t = ((cfg1.win 5).blk t).view.read (Elt Ideal) (Cert.Spec.hw (F := Ideal) (Cert.Spec.hiddenOf (V c main_v35) (V c main_v29) (V c main_v11) (V c main_v36)) (V c main_arg6)) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S1x128) hz, View.ld_unit_zero (S := S128x1) hz]
  refine funext fun (j : S5000x1.Idx) => ?_
  obtain ⟨p, q, rfl⟩ : ∃ (p : Fin 5000) (q : Fin 1), j = ix2 p q := ⟨j 0, j 1, eq_ix2 j⟩
  have hN : cfg1.N = 20 := N_1
  have ht := t.isLt
  have hp := p.isLt
  have hq := q.isLt
  have hr : 5000 * t.val + p.val < 100000 := by omega
  obtain ⟨e00, e01, e10, e11, e20, e21, e30, e31, e40, e41, e50, e51⟩ := idx_facts t
  refine (point_eq V c t p q hr).trans ?_
  rw [View.read_apply]
  refine congrArg _ ?_
  funext a
  apply Fin.ext
  match a with
  | ⟨0, _⟩ => show 5000 * t.val + p.val = win1_5.index t (0 : Fin 2) * 5000 + 1 * p.val; omega
  | ⟨1, _⟩ => show q.val = win1_5.index t (1 : Fin 2) * 1 + 1 * q.val; omega

/-- An index of the array is in point `t`'s block iff each coordinate is in the block's range on its axis. -/
theorem mem_blk (t : Fin cfg1.N) (i : S100000x1.Idx) :
    i ∈ ((cfg1.win 5).blk t).view.set ↔ ∀ a : Fin 2, win1_5.index t a * S5000x1.size a ≤ (i a).val ∧ (i a).val < win1_5.index t a * S5000x1.size a + S5000x1.size a := by
  show i ∈ ((View.whole main_v37).slice (win1_5.rect t)).set ↔ _
  rw [View.set_slice_whole, Rect.mem_set_unit]
  exact Iff.rfl

/-- Row `r` of the array is in the block of point `r / 5000`. -/
theorem cover (i : S100000x1.Idx) :
    ∃ t : Fin cfg1.N, (cfg1.win 5).flush t = true ∧ i ∈ ((cfg1.win 5).blk t).view.set := by
  have hN : cfg1.N = 20 := N_1
  have hi0 : (i 0).val < 100000 := (i 0).isLt
  have hi1 : (i 1).val < 1 := (i 1).isLt
  have hlt : (i 0).val / 5000 < cfg1.N := by rw [hN]; omega
  obtain ⟨e00, e01, e10, e11, e20, e21, e30, e31, e40, e41, e50, e51⟩ := idx_facts ⟨(i 0).val / 5000, hlt⟩
  have e50' : win1_5.index ⟨(i 0).val / 5000, hlt⟩ (0 : Fin 2) = (i 0).val / 5000 := e50
  refine ⟨⟨(i 0).val / 5000, hlt⟩, flush1_5 _, ?_⟩
  rw [mem_blk]
  intro a
  match a with
  | ⟨0, _⟩ => show win1_5.index ⟨(i 0).val / 5000, hlt⟩ (0 : Fin 2) * 5000 ≤ (i 0).val ∧ (i 0).val < win1_5.index ⟨(i 0).val / 5000, hlt⟩ (0 : Fin 2) * 5000 + 5000; omega
  | ⟨1, _⟩ => show win1_5.index ⟨(i 0).val / 5000, hlt⟩ (1 : Fin 2) * 1 ≤ (i 1).val ∧ (i 1).val < win1_5.index ⟨(i 0).val / 5000, hlt⟩ (1 : Fin 2) * 1 + 1; omega

end Blocks

/-- After the second region its output array holds relu(agg + z·d + b)·W2 of the arrays the region finds. -/
theorem arr1 (c : Dev nD) :
    (dat1 (F := Ideal) V c).arrAt 5 cfg1.N
      = Cert.Spec.hw (F := Ideal) (Cert.Spec.hiddenOf (V c main_v35) (V c main_v29) (V c main_v11) (V c main_v36)) (V c main_arg6) :=
  (dat1 (F := Ideal) V c).arrAt_eq_of_cover 5 _ (fun t _ => flushed_eq V c t) cover

end Cert.KernelIdeal.Reg1

end
-- ==== Proof.Layout.lean ====
import proofs.«404754_j41094247088649_2_alg».proof.ReferenceIdeal
import proofs.«404754_j41094247088649_2_alg».proof.Proof.Gen.ReferenceIdeal
import Idealize.ShloMosaic.Lib.Pipeline.Value
import Idealize.ShloMosaic.Lib.ValueIdx
import Idealize.ShloMosaic.Lib.ValueLayout

/-!
Layout bookkeeping: a reshape that adds a unit axis to a vector is the vector spread along the other axis;
a reshape commutes with an entrywise product; gathering entries of a one-column matrix through its flattening
is gathering its one-entry rows. Every statement compares two arrays entry by entry: both sides read the same
entry of the same operand.
-/

noncomputable section

namespace Cert.Layout

open Idealize.ShloMosaic Cert.ReferenceIdeal Cert.ReferenceIdeal.Gen
open Idealize.ShloMosaic.ValueIdx

variable {α : Type}

/-- A vector of E entries reshaped to one column is the vector spread along a new unit axis. -/
theorem colE (n : S800000.Idx → α) (h : S800000.ShapeCasts S800000x1) (h' : S800000.BroadcastsInDim S800000x1 ![0]) :
    shapeCast S800000x1 n h = broadcastInDim S800000x1 ![0] h' n := by
  funext j
  have h0 : (j 0).val < 800000 := idx2_lt0 j
  have h1 : (j 1).val < 1 := idx2_lt1 j
  refine (shapeCast_apply n h j (ix1 ⟨(j 0).val, h0⟩) ?_).trans
    (broadcastInDim_apply ![0] h' n j (ix1 ⟨(j 0).val, h0⟩) ?_).symm
  · rw [Shape.rowMajor_val_one, Shape.rowMajor_val_two]
    show (j 0).val = (j 0).val * 1 + (j 1).val
    omega
  · intro a
    match a with
    | ⟨0, _⟩ => rfl

/-- A vector of N entries reshaped to one column is the vector spread along a new unit axis. -/
theorem colN (n : S100000.Idx → α) (h : S100000.ShapeCasts S100000x1) (h' : S100000.BroadcastsInDim S100000x1 ![0]) :
    shapeCast S100000x1 n h = broadcastInDim S100000x1 ![0] h' n := by
  funext j
  have h0 : (j 0).val < 100000 := idx2_lt0 j
  have h1 : (j 1).val < 1 := idx2_lt1 j
  refine (shapeCast_apply n h j (ix1 ⟨(j 0).val, h0⟩) ?_).trans
    (broadcastInDim_apply ![0] h' n j (ix1 ⟨(j 0).val, h0⟩) ?_).symm
  · rw [Shape.rowMajor_val_one, Shape.rowMajor_val_two]
    show (j 0).val = (j 0).val * 1 + (j 1).val
    omega
  · intro a
    match a with
    | ⟨0, _⟩ => rfl

/-- A vector of 128 entries reshaped to one row is the vector spread along a new leading unit axis. -/
theorem row128 (b : S128.Idx → α) (h : S128.ShapeCasts S1x128) (h' : S128.BroadcastsInDim S1x128 ![1]) :
    shapeCast S1x128 b h = broadcastInDim S1x128 ![1] h' b := by
  funext j
  have h0 : (j 0).val < 1 := idx2_lt0 j
  have h1 : (j 1).val < 128 := idx2_lt1 j
  refine (shapeCast_apply b h j (ix1 ⟨(j 1).val, h1⟩) ?_).trans
    (broadcastInDim_apply ![1] h' b j (ix1 ⟨(j 1).val, h1⟩) ?_).symm
  · rw [Shape.rowMajor_val_one, Shape.rowMajor_val_two]
    show (j 1).val = (j 0).val * 128 + (j 1).val
    omega
  · intro a
    match a with
    | ⟨0, _⟩ => rfl

/-- The flat gather reads, at edge e, the operand's entry at the clamped start index; the row gather reads, at
    (e, 0), the operand's row at the same clamped start index: the two rows agree as naturals. -/
theorem gather_row_eq (idx : IVec S800000x1 32) (j : S800000x1.Idx) (h0 : (j 0).val < 800000) :
    ((gather_S100000x1_S800000x1_S800000x1_1_0_n_n_0_1_11).operandIdx j idx 0).val
      = ((gather_S100000_S800000x1_S800000_n_0_n_n_0_1_1).operandIdx (ix1 ⟨(j 0).val, h0⟩) idx 0).val := by
  show (gather_S100000x1_S800000x1_S800000x1_1_0_n_n_0_1_11).start j idx 0
        + (gather_S100000x1_S800000x1_S800000x1_1_0_n_n_0_1_11).batchCoord j 0
        + (gather_S100000x1_S800000x1_S800000x1_1_0_n_n_0_1_11).offCoord j 0
      = (gather_S100000_S800000x1_S800000_n_0_n_n_0_1_1).start (ix1 ⟨(j 0).val, h0⟩) idx 0
        + (gather_S100000_S800000x1_S800000_n_0_n_n_0_1_1).batchCoord (ix1 ⟨(j 0).val, h0⟩) 0
        + (gather_S100000_S800000x1_S800000_n_0_n_n_0_1_1).offCoord (ix1 ⟨(j 0).val, h0⟩) 0
  rw [GatherDims.batchCoord_eq_zero _ _ _ List.not_mem_nil, GatherDims.batchCoord_eq_zero _ _ _ List.not_mem_nil,
    GatherDims.offCoord_eq_zero _ _ _ (fun h => ((GatherDims.mem_sKept _ _).mp h).1 (List.mem_singleton.mpr rfl)),
    GatherDims.offCoord_eq_zero _ _ _ (fun h => ((GatherDims.mem_sKept _ _).mp h).1 (List.mem_singleton.mpr rfl))]
  simp only [Nat.add_zero]
  unfold GatherDims.start
  rw [dif_pos (show (0 : Fin S100000x1.rank) ∈ (gather_S100000x1_S800000x1_S800000x1_1_0_n_n_0_1_11).startIndexMap from
      List.mem_singleton.mpr rfl),
    dif_pos (show (0 : Fin S100000.rank) ∈ (gather_S100000_S800000x1_S800000_n_0_n_n_0_1_1).startIndexMap from
      List.mem_singleton.mpr rfl)]
  have hsi : (gather_S100000x1_S800000x1_S800000x1_1_0_n_n_0_1_11).siIdx j
        ⟨List.idxOf (0 : Fin S100000x1.rank) (gather_S100000x1_S800000x1_S800000x1_1_0_n_n_0_1_11).startIndexMap,
          List.idxOf_lt_length_iff.2 (List.mem_singleton.mpr rfl)⟩
      = (gather_S100000_S800000x1_S800000_n_0_n_n_0_1_1).siIdx (ix1 ⟨(j 0).val, h0⟩)
        ⟨List.idxOf (0 : Fin S100000.rank) (gather_S100000_S800000x1_S800000_n_0_n_n_0_1_1).startIndexMap,
          List.idxOf_lt_length_iff.2 (List.mem_singleton.mpr rfl)⟩ := by
    funext b; refine Fin.ext ?_
    match b with
    | ⟨0, _⟩ => rfl
    | ⟨1, _⟩ => rfl
  rw [hsi]
  rfl

/-- Gathering entries of the flattened one-column matrix and reshaping the result to one column is gathering
    the matrix's one-entry rows: both read entry (clamp (idx e), 0) of z at edge e. -/
theorem gatherCol (z : S100000x1.Idx → α) (idx : IVec S800000x1 32) (h1 : S100000x1.ShapeCasts S100000) (h2 : S800000.ShapeCasts S800000x1) :
    shapeCast S800000x1 (Host.gather gather_S100000_S800000x1_S800000_n_0_n_n_0_1_1 (shapeCast S100000 z h1) idx) h2
      = Host.gather gather_S100000x1_S800000x1_S800000x1_1_0_n_n_0_1_11 z idx := by
  funext j
  have h0 : (j 0).val < 800000 := idx2_lt0 j
  have hj1 : (j 1).val < 1 := idx2_lt1 j
  refine (shapeCast_apply _ h2 j (ix1 ⟨(j 0).val, h0⟩) ?_).trans ?_
  · rw [Shape.rowMajor_val_one, Shape.rowMajor_val_two]
    show (j 0).val = (j 0).val * 1 + (j 1).val
    omega
  unfold Host.gather
  refine shapeCast_apply z h1 _ ((gather_S100000x1_S800000x1_S800000x1_1_0_n_n_0_1_11).operandIdx j idx) ?_
  have hc : (((gather_S100000x1_S800000x1_S800000x1_1_0_n_n_0_1_11).operandIdx j idx) 1).val < 1 :=
    idx2_lt1 ((gather_S100000x1_S800000x1_S800000x1_1_0_n_n_0_1_11).operandIdx j idx)
  have hr := gather_row_eq idx j h0
  rw [Shape.rowMajor_val_two, Shape.rowMajor_val_one]
  show (((gather_S100000x1_S800000x1_S800000x1_1_0_n_n_0_1_11).operandIdx j idx) 0).val * 1
      + (((gather_S100000x1_S800000x1_S800000x1_1_0_n_n_0_1_11).operandIdx j idx) 1).val
    = ((gather_S100000_S800000x1_S800000_n_0_n_n_0_1_1).operandIdx (ix1 ⟨(j 0).val, h0⟩) idx 0).val
  omega

variable {F : FTy → Type} [FloatOps F]

/-- Reshaping commutes with the entrywise product. -/
theorem shapeCast_mulf (a b : FVec F S800000 .f32) (h : S800000.ShapeCasts S800000x1) :
    shapeCast S800000x1 (mulf a b) h = mulf (shapeCast S800000x1 a h) (shapeCast S800000x1 b h) := rfl

end Cert.Layout

end
-- ==== Proof.Bridge.lean ====
/-
  The kernel's composition of the network's stages against the reference's. They differ in four places, none of
  them arithmetic: (1) the kernel takes rows "with fill", which is the plain gather once every source index is in
  range; (2) the kernel makes a column (or a row) out of a vector by a reshape where the reference spreads it along
  a new unit axis; (3) for the second layer the kernel flattens the one-column features and the weights column,
  multiplies the flat vectors and makes the product a column again, where the reference gathers one-entry rows and
  multiplies columns; (4) the two matrix products, which the regions' values already state as the reference's.
-/
import proofs.«404754_j41094247088649_2_alg».proof.Proof.Spec
import proofs.«404754_j41094247088649_2_alg».proof.Proof.KDefs
import proofs.«404754_j41094247088649_2_alg».proof.Proof.KStages
import proofs.«404754_j41094247088649_2_alg».proof.Proof.TakeFill
import proofs.«404754_j41094247088649_2_alg».proof.Proof.Layout

noncomputable section

namespace Cert.Bridge

open Idealize.ShloMosaic Cert.ReferenceIdeal Cert.ReferenceIdeal.Gen Cert.Spec Cert.KSide

variable {F : FTy → Type} [FloatOps F]

/-- The kernel's second-layer features: the hidden layer on the rows taken with fill, with the kernel's reshapes
    for the weights column, the dis² column and the bias row. -/
def hwK (X : FVec F S100000x200 .f32) (ei : IVec S2x800000 32) (ew : FVec F S800000 .f32)
    (W1 : FVec F S200x128 .f32) (b1 : FVec F S128 .f32) (W2 : FVec F S128x1 .f32)
    (hE : S800000.ShapeCasts S800000x1) (hN : S100000.ShapeCasts S100000x1) (hR : S128.ShapeCasts S1x128) : FVec F S100000x1 .f32 :=
  hw (hiddenOf (aggOf (dst ei) (takeRows (xw X W1) (src ei)) (shapeCast S800000x1 (norm ei ew) hE)) (xw X W1)
      (shapeCast S100000x1 (mulf (dis ei ew) (dis ei ew)) hN) (shapeCast S1x128 b1 hR)) W2

/-- With every source in range, the kernel's second-layer features are the network's. -/
theorem hwK_eq (X : FVec F S100000x200 .f32) (ei : IVec S2x800000 32) (ew : FVec F S800000 .f32)
    (W1 : FVec F S200x128 .f32) (b1 : FVec F S128 .f32) (W2 : FVec F S128x1 .f32)
    (hE : S800000.ShapeCasts S800000x1) (hN : S100000.ShapeCasts S100000x1) (hR : S128.ShapeCasts S1x128)
    (hin : ∀ e : S800000.Idx, inRange (wrap (src ei)) e = 1#1) :
    hwK X ei ew W1 b1 W2 hE hN hR = hw (hidden ei ew (agg ei ew (rowsAtSrc ei (xw X W1))) (xw X W1) b1) W2 := by
  unfold hwK
  rw [takeRows_eq _ _ hin, Cert.Layout.colE _ hE bcast_S800000_S800000x1_0, Cert.Layout.colN _ hN bcast_S100000_S100000x1_0,
    Cert.Layout.row128 _ hR bcast_S128_S1x128_1]
  rfl

/-- With every source in range, the kernel's composition is the network. -/
theorem result_eq (X : FVec F S100000x200 .f32) (ei : IVec S2x800000 32) (ew : FVec F S800000 .f32) (batch : IVec S100000 32)
    (W1 : FVec F S200x128 .f32) (b1 : FVec F S128 .f32) (W2 : FVec F S128x1 .f32) (b2 : FVec F S1 .f32)
    (hE : S800000.ShapeCasts S800000x1) (hN : S100000.ShapeCasts S100000x1) (hR : S128.ShapeCasts S1x128)
    (hE' : S800000x1.ShapeCasts S800000) (hN' : S100000x1.ShapeCasts S100000)
    (hin : ∀ e : S800000.Idx, inRange (wrap (src ei)) e = 1#1) :
    pool batch (out2Of (dst ei)
        (shapeCast S800000x1 (mulf (takeEntries (shapeCast S100000 (hwK X ei ew W1 b1 W2 hE hN hR) hN') (src ei))
          (shapeCast S800000 (shapeCast S800000x1 (norm ei ew) hE) hE')) hE)
        (hwK X ei ew W1 b1 W2 hE hN hR) (shapeCast S100000x1 (mulf (dis ei ew) (dis ei ew)) hN) b2)
      = result X ei ew batch W1 b1 W2 b2 := by
  rw [hwK_eq X ei ew W1 b1 W2 hE hN hR hin, takeEntries_eq _ _ hin, shapeCast_shapeCast, Cert.Layout.shapeCast_mulf,
    Cert.Layout.gatherCol, Cert.Layout.colE _ hE bcast_S800000_S800000x1_0, Cert.Layout.colN _ hN bcast_S100000_S100000x1_0]
  rfl

end Cert.Bridge

end
-- ==== Proof.KernelValue.lean ====
/-
  The kernel's result as the network of its arguments: the stages of the host program between the regions
  (read at each boundary), the two regions' arrays as the two matrix products, and the comparison of the kernel's
  composition with the network's, chained from the return back to the launch.
-/
import proofs.«404754_j41094247088649_2_alg».proof.Proof.KWalk
import proofs.«404754_j41094247088649_2_alg».proof.Proof.Region0
import proofs.«404754_j41094247088649_2_alg».proof.Proof.Region1
import proofs.«404754_j41094247088649_2_alg».proof.Proof.Bridge

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- At the first region's exit the feature array holds X·W1 of the arguments. -/
theorem r0_v29 (c : Dev nD) : (W2 m ρ c (Proc.devRef .tc main_v29)) = Cert.Spec.xw (F := Ideal) (m ((c : Thread nD τ).loc main_arg0)) (m ((c : Thread nD τ).loc main_arg4)) := by
  refine ((W2_arr m ρ c 2).trans (Cert.KernelIdeal.Reg0.arr0 (V1 m ρ) c)).trans ?_
  show Cert.Spec.xw (F := Ideal) (W1 m ρ c (Proc.devRef .tc main_arg0)) (W1 m ρ c (Proc.devRef .tc main_arg4)) = _
  rw [e_arg0, e_arg4]

/-- At the second region's exit its output holds the kernel's second-layer features of the arguments. -/
theorem r1_v37 (c : Dev nD) : (W5 m ρ c (Proc.devRef .tc main_v37))
    = Cert.Bridge.hwK (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))
        shapeCasts_S800000_S800000x1 shapeCasts_S100000_S100000x1 shapeCasts_S128_S1x128 := by
  refine ((W5_arr m ρ c 5).trans (Cert.KernelIdeal.Reg1.arr1 (V4 m ρ) c)).trans ?_
  show Cert.Spec.hw (F := Ideal) (Cert.Spec.hiddenOf (W4 m ρ c (Proc.devRef .tc main_v35)) (W4 m ρ c (Proc.devRef .tc main_v29)) (W4 m ρ c (Proc.devRef .tc main_v11)) (W4 m ρ c (Proc.devRef .tc main_v36))) (W4 m ρ c (Proc.devRef .tc main_arg6)) = _
  rw [f_v35, f_v29, f_v11, f_v36, f_arg6, r0_v29, x0_v3, x0_v1, x0_v28, x0_v11, x0_arg5, x0_arg6,
    e_v3, e_v1, e_v28, e_v11, e_arg5, e_arg6]
  rfl

/-- The kernel's result buffer at the return is the network of the arguments, when every edge's source (moved
    into range from the end if negative) is a node. -/
theorem value (c : Dev nD)
    (hin : ∀ e : Cert.ReferenceIdeal.S800000.Idx, Cert.KSide.inRange (Cert.Spec.wrap (Cert.Spec.src (m ((c : Thread nD τ).loc main_arg1)))) e = 1#1) :
    (W8 m ρ c (Proc.devRef .tc main_v62))
      = Cert.Spec.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [g_v62, r1_v37, x1_arg3, x1_v3, x1_v1, x1_v28, x1_v11, x1_arg7, f_arg3, f_v3, f_v1, f_v28, f_v11, f_arg7,
    x0_arg3, x0_v3, x0_v1, x0_v28, x0_v11, x0_arg7, e_arg3, e_v3, e_v1, e_v28, e_v11, e_arg7]
  exact Cert.Bridge.result_eq (F := Ideal) _ _ _ _ _ _ _ _ _ _ _ _ _ hin

end Cert.KernelIdeal.KV

end
-- ==== Proof.lean ====
/-
  A two-layer graph convolution with edge weights and self loops followed by a mean over graphs: the kernel
  computes the two dense matrix products (X·W1, and relu(agg + X·W1 · dis² + b1)·W2) in two tiled regions and the
  degree normalisation, the edge gathers and scatter-sums and the pooling on the host; the reference is the same
  network written with jnp. At the extended reals the two are one function of the arguments:
    * each region's output array is the host's matrix product of the same operands (a block of rows of a product is
      the product of the block of rows; the bf16 conversions are the identity);
    * the kernel gathers rows "with fill" (an out-of-range source gives a fill value) where the reference's
      indexing clamps: under the precondition every source e satisfies -N ≤ src e < N, so after the shared
      move of negative indices into range no source is out of range and the two gathers agree;
    * what is left are reshapes against unit-axis broadcasts and a flattened against a one-column product.
  The frames of the two kernel programs are the generated ones; the reference's is its generated run.
-/
import proofs.«404754_j41094247088649_2_alg».proof.Defs
import proofs.«404754_j41094247088649_2_alg».proof.Proof.Gen.Kernel
import proofs.«404754_j41094247088649_2_alg».proof.Proof.Gen.Kernel.Frame
import proofs.«404754_j41094247088649_2_alg».proof.Proof.Gen.KernelIdeal
import proofs.«404754_j41094247088649_2_alg».proof.Proof.Gen.KernelIdeal.Frame
import proofs.«404754_j41094247088649_2_alg».proof.Proof.Gen.ReferenceIdeal
import proofs.«404754_j41094247088649_2_alg».proof.Proof.Gen.ReferenceIdeal.Run
import proofs.«404754_j41094247088649_2_alg».proof.Proof.Gen.Pre_finite_inputs
import proofs.«404754_j41094247088649_2_alg».proof.Proof.Spec
import proofs.«404754_j41094247088649_2_alg».proof.Proof.TakeFill
import proofs.«404754_j41094247088649_2_alg».proof.Proof.KernelRun
import proofs.«404754_j41094247088649_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the arguments in their result: the kernel by its run read at the result
    buffer and the stage-by-stage value, the reference by its generated run, whose term is the network by unfolding. -/
theorem algebraic : Cert.algebraic_KernelIdeal_ReferenceIdeal := by
  intro m ρ m' ρ' hpre hagree
  refine ⟨fun c => Cert.Spec.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KV.value m ρ c (Cert.KSide.src_inRange _ _ _ _ _ _ _ _ (hpre c))), (h c).2⟩)
      (Cert.KernelIdeal.KRun.run_out m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.Spec.ref_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
